-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S8x512x64x64 : Shape := ⟨4, ![8, 512, 64, 64]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S8x512x64x64 : S_.BroadcastsInDim S8x512x64x64 (![] : Fin 0 → Fin S8x512x64x64.rank)
  reducesTo_S8x512x64x64_S_d0_1_2_3 : S8x512x64x64.ReducesTo [0, 1, 2, 3] S_

variable [Facts]

def fn {F : FTy → Type} [FloatOps F] (main_arg0 : FVec F S8x64x64x64 .f32) (main_arg1 : FVec F S8x64x64x64 .f32) (main_arg2 : FVec F S8x512x64x64 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S8x64x64x64 .f32 := Host.absf main_arg1
  let main_cst_0 : FVec F S_ .f32 := constant S_ .f32 0x7F800000#32
  let main_v5 : FVec F S8x64x64x64 .f32 := broadcastInDim S8x64x64x64 ![] bcast_S_S8x64x64x64 main_cst_0
  let main_v6 : IVec S8x64x64x64 1 := cmpf .olt main_v4 main_v5
  let main_c_1 : IVec S_ 1 := constantI S_ 1 1#1
  let main_v7 : IVec S_ 1 := (fun x v => Host.reduce IntOp.andi x v reducesTo_S8x64x64x64_S_d0_1_2_3 h_S_) main_v6 main_c_1
  let main_v8 : IVec S_ 1 := andi main_v3 main_v7
  let main_v9 : FVec F S8x512x64x64 .f32 := Host.absf main_arg2
  let main_cst_2 : FVec F S_ .f32 := constant S_ .f32 0x7F800000#32
  let main_v10 : FVec F S8x512x64x64 .f32 := broadcastInDim S8x512x64x64 ![] bcast_S_S8x512x64x64 main_cst_2
  let main_v11 : IVec S8x512x64x64 1 := cmpf .olt main_v9 main_v10
  let main_c_3 : IVec S_ 1 := constantI S_ 1 1#1
  let main_v12 : IVec S_ 1 := (fun x v => Host.reduce IntOp.andi x v reducesTo_S8x512x64x64_S_d0_1_2_3 h_S_) main_v11 main_c_3
  let main_v13 : IVec S_ 1 := andi main_v8 main_v12
  main_v13
-- ==== Kernel.lean ====
abbrev S8x64x64x64 : Shape := ⟨4, ![8, 64, 64, 64]⟩
abbrev S8x512x64x64 : Shape := ⟨4, ![8, 512, 64, 64]⟩
abbrev S8x64x4096 : Shape := ⟨3, ![8, 64, 4096]⟩
abbrev S8x512x4096 : Shape := ⟨3, ![8, 512, 4096]⟩
abbrev S1x64x1024 : Shape := ⟨3, ![1, 64, 1024]⟩
abbrev S1x512x1024 : Shape := ⟨3, ![1, 512, 1024]⟩
abbrev S1x1024 : Shape := ⟨2, ![1, 1024]⟩
abbrev S512x1024 : Shape := ⟨2, ![512, 1024]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8x64x64x64, .f32⟩
  | .hbm, ⟨1, _⟩ => ⟨S8x64x64x64, .f32⟩
  | .hbm, ⟨2, _⟩ => ⟨S8x512x64x64, .f32⟩
  | .hbm, ⟨3, _⟩ => ⟨S8x64x4096, .f32⟩
  | .hbm, ⟨4, _⟩ => ⟨S8x64x4096, .f32⟩
  | .hbm, ⟨5, _⟩ => ⟨S8x512x4096, .f32⟩
  | .hbm, ⟨6, _⟩ => ⟨S8x512x4096, .f32⟩
  | .hbm, ⟨7, _⟩ => ⟨S8x512x64x64, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x64x64x64_S8x64x4096 : S8x64x64x64.ShapeCasts S8x64x4096
  shapeCasts_S8x512x64x64_S8x512x4096 : S8x512x64x64.ShapeCasts S8x512x4096
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x1024_S1024 : S1024x1024.Reduces [0] S1024
  shapeCasts_S1024_S1x1024 : S1024.ShapeCasts S1x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  shapeCasts_S512x1024_S1x512x1024 : S512x1024.ShapeCasts S1x512x1024
  shapeCasts_S8x512x4096_S8x512x64x64 : S8x512x4096.ShapeCasts S8x512x64x64
  dot_S64x1024_S64x1024_S1024x1024_0_0_1_1_n_n_wf : DotDims.WF S64x1024 S64x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S8x64x4096.size a
  hwx0_0 : ∀ i : grid0.Coords, EltTy.bits .f32 = 32 ∨ (Rect.block (s := S8x64x4096) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x4096.size a
  hwx0_1 : ∀ i : grid0.Coords, EltTy.bits .f32 = 32 ∨ (Rect.block (s := S8x64x4096) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x512x4096.size a
  hwx0_2 : ∀ i : grid0.Coords, EltTy.bits .f32 = 32 ∨ (Rect.block (s := S8x512x4096) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x512x4096.size a
  hwx0_3 : ∀ i : grid0.Coords, EltTy.bits .f32 = 32 ∨ (Rect.block (s := S8x512x4096) S1x512x1024.size (cc0_transform_3 i) (hinb0_3 i)).WholeWords (EltTy.packing .f32)

variable [Facts₀]

def dot_S64x1024_S64x1024_S1024x1024_0_0_1_1_n_n : DotDims S64x1024 S64x1024 S1024x1024 where
  lhsContracting := [0]
  rhsContracting := [0]
  lhsNonContracting := [1]
  rhsNonContracting := [1]
  lhsBatch := []
  rhsBatch := []
  wf := dot_S64x1024_S64x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x64x64x64 : Shape := ⟨4, ![8, 64, 64, 64]⟩
abbrev S8x512x64x64 : Shape := ⟨4, ![8, 512, 64, 64]⟩
abbrev S8x64x4096 : Shape := ⟨3, ![8, 64, 4096]⟩
abbrev S_ : Shape := ⟨0, ![]⟩
abbrev S8x4096x4096 : Shape := ⟨3, ![8, 4096, 4096]⟩
abbrev S8x4096 : Shape := ⟨2, ![8, 4096]⟩
abbrev S8x1x4096 : Shape := ⟨3, ![8, 1, 4096]⟩
abbrev S8x512x4096 : Shape := ⟨3, ![8, 512, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S8x64x64x64, .f32⟩
  | .hbm, ⟨2, _⟩ => ⟨S8x512x64x64, .f32⟩
  | .hbm, ⟨3, _⟩ => ⟨S8x64x4096, .f32⟩
  | .hbm, ⟨4, _⟩ => ⟨S8x64x4096, .f32⟩
  | .hbm, ⟨5, _⟩ => ⟨S_, .f32⟩
  | .hbm, ⟨6, _⟩ => ⟨S8x64x4096, .f32⟩
  | .hbm, ⟨7, _⟩ => ⟨S8x64x4096, .f32⟩
  | .hbm, ⟨8, _⟩ => ⟨S8x4096x4096, .f32⟩
  | .hbm, ⟨9, _⟩ => ⟨S_, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S8x512x4096, .f32⟩
  | .hbm, ⟨24, _⟩ => ⟨S8x512x4096, .f32⟩
  | .hbm, ⟨25, _⟩ => ⟨S8x512x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S8x64x64x64_S8x64x4096 : S8x64x64x64.ShapeCasts S8x64x4096
  bcast_S_S8x64x4096 : S_.BroadcastsInDim S8x64x4096 (![] : Fin 0 → Fin S8x64x4096.rank)
  reducesTo_S8x4096x4096_S8x4096_d1 : S8x4096x4096.ReducesTo [1] S8x4096
  h_S_ : 0 < S_.numel
  bcast_S_S8x4096 : S_.BroadcastsInDim S8x4096 (![] : Fin 0 → Fin S8x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  shapeCasts_S8x512x64x64_S8x512x4096 : S8x512x64x64.ShapeCasts S8x512x4096
  shapeCasts_S8x512x4096_S8x512x64x64 : S8x512x4096.ShapeCasts S8x512x64x64
  dot_S8x64x4096_S8x64x4096_S8x4096x4096_1_1_2_2_0_0_wf : DotDims.WF S8x64x4096 S8x64x4096 S8x4096x4096 [1] [1] [2] [2] [0] [0]
  dot_S8x512x4096_S8x4096x4096_S8x512x4096_2_1_1_2_0_0_wf : DotDims.WF S8x512x4096 S8x4096x4096 S8x512x4096 [2] [1] [1] [2] [0] [0]

variable [Facts₀]

def dot_S8x64x4096_S8x64x4096_S8x4096x4096_1_1_2_2_0_0 : DotDims S8x64x4096 S8x64x4096 S8x4096x4096 where
  lhsContracting := [1]
  rhsContracting := [1]
  lhsNonContracting := [2]
  rhsNonContracting := [2]
  lhsBatch := [0]
  rhsBatch := [0]
  wf := dot_S8x64x4096_S8x64x4096_S8x4096x4096_1_1_2_2_0_0_wf
def dot_S8x512x4096_S8x4096x4096_S8x512x4096_2_1_1_2_0_0 : DotDims S8x512x4096 S8x4096x4096 S8x512x4096 where
  lhsContracting := [2]
  rhsContracting := [1]
  lhsNonContracting := [1]
  rhsNonContracting := [2]
  lhsBatch := [0]
  rhsBatch := [0]
  wf := dot_S8x512x4096_S8x4096x4096_S8x512x4096_2_1_1_2_0_0_wf

class Facts : Prop extends Facts₀ where

variable [Facts]
-- ==== Proof.K.Conds.lean ====
/-
  The three branches of the attention body, as conditions on the grid point, and where they hold.

  The grid is (batch, query tile, key tile) = 8 × 4 × 4, and the key tile is the fastest coordinate, so the
  point number modulo 4 is the key tile.  The first branch (reset the running statistics) is taken at key tile 0,
  the second (rescale and accumulate) at key tiles 1, 2, 3, the third (normalise and store the output block) at key
  tile 3 only.  The output window is written back exactly at the points of the third branch and is untouched
  elsewhere.  The three scratch buffers (running maximum, running normaliser, running numerator) are the core's
  scoped buffers that are no staging buffer.
-/
import proofs.«418840_j16930761081022_3_alg».proof.Proof.Gen.Kernel.Frame
import proofs.«418840_j16930761081022_3_alg».proof.Proof.Gen.Kernel.Skeleton

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (key tile = 0), as the body computes it from the grid coordinates. -/
abbrev cond1 (i : grid0.Coords) : Prop := (Scalar.cmpi .ne (Scalar.extui (Scalar.cmpi .eq (BitVec.ofNat 32 (i 2).val) 0#32)) 0#32) = 1#1
/-- The second branch's condition (key tile > 0). -/
abbrev cond2 (i : grid0.Coords) : Prop := (Scalar.cmpi .ne (Scalar.extui (Scalar.cmpi .sgt (BitVec.ofNat 32 (i 2).val) 0#32)) 0#32) = 1#1
/-- The third branch's condition (key tile = 3, the last). -/
abbrev cond3 (i : grid0.Coords) : Prop := k0_cond3 i = 1#1

/-- The first branch is taken exactly at the points whose number is 0 modulo 4. -/
theorem hcond1 : ∀ t : Fin cfg0.N, cond1 (grid0.coords t) ↔ t.val % 4 = 0 :=
  (by decide +kernel : ∀ t : Fin grid0.N, cond1 (grid0.coords t) ↔ t.val % 4 = 0)
/-- The second branch is taken exactly at the other points. -/
theorem hcond2 : ∀ t : Fin cfg0.N, cond2 (grid0.coords t) ↔ t.val % 4 ≠ 0 :=
  (by decide +kernel : ∀ t : Fin grid0.N, cond2 (grid0.coords t) ↔ t.val % 4 ≠ 0)
/-- The third branch is taken exactly at the points whose number is 3 modulo 4. -/
theorem hcond3 : ∀ t : Fin cfg0.N, cond3 (grid0.coords t) ↔ t.val % 4 = 3 :=
  (by decide +kernel : ∀ t : Fin grid0.N, cond3 (grid0.coords t) ↔ t.val % 4 = 3)

/-- The coordinates of a point: batch, query tile, key tile. -/
theorem coords_val : ∀ t : Fin cfg0.N, ((grid0.coords t) 0).val = t.val / 16 ∧ ((grid0.coords t) 1).val = t.val / 4 % 4 ∧ ((grid0.coords t) 2).val = t.val % 4 :=
  (by decide +kernel : ∀ t : Fin grid0.N, ((grid0.coords t) 0).val = t.val / 16 ∧ ((grid0.coords t) 1).val = t.val / 4 % 4 ∧ ((grid0.coords t) 2).val = t.val % 4)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle where the third branch is not taken, -/
theorem idle3 : ∀ t : Fin cfg0.N, ¬cond3 (grid0.coords t) → cfg0.idle 3 (grid0.coords t) = true := by decide +kernel
/-- is not written back there, -/
theorem noFlush3 : ∀ t : Fin cfg0.N, ¬cond3 (grid0.coords t) → (cfg0.win 3).flush t = false := by decide +kernel
/-- and is live where it is taken. -/
theorem live3 : ∀ t : Fin cfg0.N, cond3 (grid0.coords t) → cfg0.idle 3 (grid0.coords t) = false := by decide +kernel

/-- Each window's current staging memref at a point, as the pipeline passes it to the body, and its wholeness. -/
abbrev ms0 (t : Fin cfg0.N) : Memref sig .tc .vmem S1x64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1024 .f32 := win0_3.stage (cfg0.slots t 3)
abbrev hs3 (t : Fin cfg0.N) : (ms3 t).IsWhole := hstage0_3 ((cfg0.slots t 3).cast nbuf0_3)
/-- The scratch operands: the running maximum, the running normaliser, the running numerator. -/
abbrev scM : Memref sig .tc .vmem S1x1024 .f32 := Memref.whole cc0_scratch0
abbrev scL : Memref sig .tc .vmem S1x1024 .f32 := Memref.whole cc0_scratch1
abbrev scA : Memref sig .tc .vmem S512x1024 .f32 := Memref.whole cc0_scratch2

/-- The region's invariant with the scratch operands as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.Kernel.Attn

end
-- ==== Proof.K.RunA.lean ====
/-
  The attention body at a point of key tile 0 (first branch only): it loads the key, query and value blocks,
  forms the score tile, and RESETS the three running statistics — the maximum to the tile's column maxima, the
  normaliser to the column sums of exp (score − maximum), the numerator to the value block times those exponentials.
  Whatever the scratch buffers held is overwritten whole; the output buffer is not touched.
-/
import proofs.«418840_j16930761081022_3_alg».proof.Proof.K.Conds
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle at offset zero returns the contents the buffer is owned at. -/
private theorem readAt_full {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- One store through the full rectangle at offset zero covers the buffer: whatever it held, it now reads the stored value. -/
private theorem read_store_full {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- The offset vectors of the body's loads and stores are zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

set_option maxHeartbeats 1000000 in
/-- Key tile 0: the inputs' buffers and the output's come back as they were; the scratch buffers, found at anything,
    end at the reset statistics (`k0_pay5`, `k0_pay6`, `k0_pay7` of the loaded blocks). -/
theorem runA (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (hc1 : cond1 i) (hc2 : ¬cond2 i) (hc3 : ¬cond3 i)
    (x0 x1 : Vec F S1x64x1024 .f32) (x2 xi3 : Vec F S1x512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare (k0_pay5 x0 x1) ∗ owns (c : Thread nD τ) arg8 fullShare (k0_pay6 x0 x1) ∗ owns (c : Thread nD τ) arg9 fullShare (k0_pay7 x0 x1 x2)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2
  sl_exec (disch := first | exact hc1 | exact hc2 | exact hc3)
  sl_step
  -- the three loads return the blocks the inputs' buffers are owned at
  rw [readAt_full harg3 off3_zero inb_S1x64x1024_S1x64x1024_0_0_0 x0,
    readAt_full harg4 off3_zero inb_S1x64x1024_S1x64x1024_0_0_0 x1,
    readAt_full harg5 off3_zero inb_S1x512x1024_S1x512x1024_0_0_0 x2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- each scratch buffer was stored whole, so it reads the stored statistic
  isplitl [H7]
  · iexists _; isplitr; · ipureintro; exact read_store_full arg7.view f7 off2_zero inb_S1x1024_S1x1024_0_0 _
    iexact H7
  isplitl [H8]
  · iexists _; isplitr; · ipureintro; exact read_store_full arg8.view f8 off2_zero inb_S1x1024_S1x1024_0_0 _
    iexact H8
  iexists _; isplitr; · ipureintro; exact read_store_full arg9.view f9 off2_zero inb_S512x1024_S512x1024_0_0 _
  iexact H9

end Cert.Kernel.Attn

end
-- ==== Proof.K.RunB.lean ====
/-
  The attention body at a point of key tile 1 or 2 (second branch only): with the running maximum `s0`, normaliser
  `s1` and numerator `s2` of the earlier key tiles in the scratch buffers, it raises the maximum to cover this
  tile's scores, rescales normaliser and numerator by exp (old maximum − new maximum) and adds this tile's terms.
  The output buffer is not touched.
-/
import proofs.«418840_j16930761081022_3_alg».proof.Proof.K.RunA
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle at offset zero returns the contents the buffer is owned at. -/
private theorem readAt_full {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- One store through the full rectangle at offset zero covers the buffer: whatever it held, it now reads the stored value. -/
private theorem read_store_full {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- The offset vectors of the body's loads and stores are zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

set_option maxHeartbeats 1000000 in
/-- Key tiles 1 and 2: the scratch buffers go from `s0`, `s1`, `s2` to the updated statistics
    (`k0_pay13`, `k0_pay11`, `k0_pay12`); everything else comes back as it was. -/
theorem runB (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (hc1 : ¬cond1 i) (hc2 : cond2 i) (hc3 : ¬cond3 i)
    (x0 x1 : Vec F S1x64x1024 .f32) (x2 xi3 : Vec F S1x512x1024 .f32) (s0 s1 : Vec F S1x1024 .f32) (s2 : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare (k0_pay13 x0 x1 s0) ∗ owns (c : Thread nD τ) arg8 fullShare (k0_pay11 x0 x1 s0 s1) ∗ owns (c : Thread nD τ) arg9 fullShare (k0_pay12 x0 x1 x2 s0 s2)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  -- every load of the run precedes the store into its buffer, so it returns the contents the buffer was owned at
  rw [readAt_full harg3 off3_zero inb_S1x64x1024_S1x64x1024_0_0_0 x0,
    readAt_full harg4 off3_zero inb_S1x64x1024_S1x64x1024_0_0_0 x1,
    readAt_full harg5 off3_zero inb_S1x512x1024_S1x512x1024_0_0_0 x2,
    readAt_full harg7 off2_zero inb_S1x1024_S1x1024_0_0 s0,
    readAt_full harg8 off2_zero inb_S1x1024_S1x1024_0_0 s1,
    readAt_full harg9 off2_zero inb_S512x1024_S512x1024_0_0 s2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- each scratch buffer was stored whole, so it reads the updated statistic
  isplitl [H7]
  · iexists _; isplitr; · ipureintro; exact read_store_full arg7.view (harg7.unread s0) off2_zero inb_S1x1024_S1x1024_0_0 _
    iexact H7
  isplitl [H8]
  · iexists _; isplitr; · ipureintro; exact read_store_full arg8.view (harg8.unread s1) off2_zero inb_S1x1024_S1x1024_0_0 _
    iexact H8
  iexists _; isplitr; · ipureintro; exact read_store_full arg9.view (harg9.unread s2) off2_zero inb_S512x1024_S512x1024_0_0 _
  iexact H9

end Cert.Kernel.Attn

end
-- ==== Proof.K.RunC.lean ====
/-
  The attention body at a point of key tile 3 (second and third branch): the update of key tiles 1 and 2, and then
  the output block is stored: the updated numerator divided, column by column, by the updated normaliser.
-/
import proofs.«418840_j16930761081022_3_alg».proof.Proof.K.RunB
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle at offset zero returns the contents the buffer is owned at. -/
private theorem readAt_full {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- One store through the full rectangle at offset zero covers the buffer: whatever it held, it now reads the stored value. -/
private theorem read_store_full {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- The offset vectors of the body's loads and stores are zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

set_option maxHeartbeats 1000000 in
/-- Key tile 3: the scratch buffers are updated as at key tiles 1 and 2, and the output's buffer, found at anything,
    ends at the quotient `k0_pay14` of the updated numerator by the updated normaliser. -/
theorem runC (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (hc1 : ¬cond1 i) (hc2 : cond2 i) (hc3 : cond3 i)
    (x0 x1 : Vec F S1x64x1024 .f32) (x2 : Vec F S1x512x1024 .f32) (s0 s1 : Vec F S1x1024 .f32) (s2 : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (k0_pay14 (k0_pay12 x0 x1 x2 s0 s2) (k0_pay11 x0 x1 s0 s1))
            ∗ owns (c : Thread nD τ) arg7 fullShare (k0_pay13 x0 x1 s0) ∗ owns (c : Thread nD τ) arg8 fullShare (k0_pay11 x0 x1 s0 s1) ∗ owns (c : Thread nD τ) arg9 fullShare (k0_pay12 x0 x1 x2 s0 s2)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  sl_unfold_run_names
  -- the second branch's loads precede its stores, so they return the contents the buffers were owned at;
  rw [readAt_full harg3 off3_zero inb_S1x64x1024_S1x64x1024_0_0_0 x0,
    readAt_full harg4 off3_zero inb_S1x64x1024_S1x64x1024_0_0_0 x1,
    readAt_full harg5 off3_zero inb_S1x512x1024_S1x512x1024_0_0_0 x2,
    readAt_full harg7 off2_zero inb_S1x1024_S1x1024_0_0 s0,
    readAt_full harg8 off2_zero inb_S1x1024_S1x1024_0_0 s1,
    readAt_full harg9 off2_zero inb_S512x1024_S512x1024_0_0 s2]
  -- the third branch's loads of the numerator and the normaliser follow the second branch's whole stores into
  -- those buffers, so they return the updated statistics
  rw [View.readCov_unit_zero arg9.view off2_zero inb_S512x1024_S512x1024_0_0,
    View.readCov_unit_zero arg8.view off2_zero inb_S1x1024_S1x1024_0_0]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  -- the output's buffer was stored whole, so it reads the quotient
  isplitl [H3]
  · iexists _; isplitr; · ipureintro; exact read_store_full arg6.view f3 off3_zero inb_S1x512x1024_S1x512x1024_0_0_0 _
    iexact H3
  -- each scratch buffer was stored whole, so it reads the updated statistic
  isplitl [H7]
  · iexists _; isplitr; · ipureintro; exact read_store_full arg7.view (harg7.unread s0) off2_zero inb_S1x1024_S1x1024_0_0 _
    iexact H7
  isplitl [H8]
  · iexists _; isplitr; · ipureintro; exact read_store_full arg8.view (harg8.unread s1) off2_zero inb_S1x1024_S1x1024_0_0 _
    iexact H8
  iexists _; isplitr; · ipureintro; exact read_store_full arg9.view (harg9.unread s2) off2_zero inb_S512x1024_S512x1024_0_0 _
  iexact H9

end Cert.Kernel.Attn

end
-- ==== Proof.K.Data.lean ====
/-
  What the three running statistics hold after each grid point, and the proof data of the pipeline.

  After a point of key tile 0 the scratch buffers hold the reset statistics of that point's blocks; after any
  other point they hold the update of what the point before left.  The output block a point of key tile 3 stores
  is the quotient of the updated numerator by the updated normaliser.
-/
import proofs.«418840_j16930761081022_3_alg».proof.Proof.K.Conds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The key, query and value blocks a point is handed, at their literal types. -/
abbrev kblk (c : Dev nD) (t : Fin cfg0.N) : Vec F S1x64x1024 .f32 := iblk m c 0 t
abbrev qblk (c : Dev nD) (t : Fin cfg0.N) : Vec F S1x64x1024 .f32 := iblk m c 1 t
abbrev vblk (c : Dev nD) (t : Fin cfg0.N) : Vec F S1x512x1024 .f32 := iblk m c 2 t

/-- The running maximum, normaliser and numerator after the body at point `n`: reset at key tile 0, else the
    update of what the point before left. -/
def scr (c : Dev nD) : (n : ℕ) → n < cfg0.N → Vec F S1x1024 .f32 × Vec F S1x1024 .f32 × Vec F S512x1024 .f32
  | 0, hn => (k0_pay5 (kblk m c ⟨0, hn⟩) (qblk m c ⟨0, hn⟩), k0_pay6 (kblk m c ⟨0, hn⟩) (qblk m c ⟨0, hn⟩),
      k0_pay7 (kblk m c ⟨0, hn⟩) (qblk m c ⟨0, hn⟩) (vblk m c ⟨0, hn⟩))
  | n + 1, hn =>
    if (n + 1) % 4 = 0 then
      (k0_pay5 (kblk m c ⟨n + 1, hn⟩) (qblk m c ⟨n + 1, hn⟩), k0_pay6 (kblk m c ⟨n + 1, hn⟩) (qblk m c ⟨n + 1, hn⟩),
        k0_pay7 (kblk m c ⟨n + 1, hn⟩) (qblk m c ⟨n + 1, hn⟩) (vblk m c ⟨n + 1, hn⟩))
    else
      (k0_pay13 (kblk m c ⟨n + 1, hn⟩) (qblk m c ⟨n + 1, hn⟩) (scr c n (Nat.lt_of_succ_lt hn)).1,
        k0_pay11 (kblk m c ⟨n + 1, hn⟩) (qblk m c ⟨n + 1, hn⟩) (scr c n (Nat.lt_of_succ_lt hn)).1 (scr c n (Nat.lt_of_succ_lt hn)).2.1,
        k0_pay12 (kblk m c ⟨n + 1, hn⟩) (qblk m c ⟨n + 1, hn⟩) (vblk m c ⟨n + 1, hn⟩) (scr c n (Nat.lt_of_succ_lt hn)).1 (scr c n (Nat.lt_of_succ_lt hn)).2.2)

/-- At a point of key tile 0: the reset statistics. -/
theorem scr_reset (c : Dev nD) (t : Fin cfg0.N) (h : t.val % 4 = 0) :
    scr m c t.val t.isLt = (k0_pay5 (kblk m c t) (qblk m c t), k0_pay6 (kblk m c t) (qblk m c t), k0_pay7 (kblk m c t) (qblk m c t) (vblk m c t)) := by
  obtain ⟨n, hn⟩ := t
  cases n with
  | zero => rfl
  | succ n => exact if_pos h

/-- At any other point: the update of what the point before left. -/
theorem scr_step (c : Dev nD) (t : Fin cfg0.N) (h : t.val % 4 ≠ 0) :
    scr m c t.val t.isLt =
      (k0_pay13 (kblk m c t) (qblk m c t) (scr m c (t.val - 1) (Nat.lt_of_le_of_lt (Nat.sub_le _ _) t.isLt)).1,
        k0_pay11 (kblk m c t) (qblk m c t) (scr m c (t.val - 1) (Nat.lt_of_le_of_lt (Nat.sub_le _ _) t.isLt)).1 (scr m c (t.val - 1) (Nat.lt_of_le_of_lt (Nat.sub_le _ _) t.isLt)).2.1,
        k0_pay12 (kblk m c t) (qblk m c t) (vblk m c t) (scr m c (t.val - 1) (Nat.lt_of_le_of_lt (Nat.sub_le _ _) t.isLt)).1 (scr m c (t.val - 1) (Nat.lt_of_le_of_lt (Nat.sub_le _ _) t.isLt)).2.2) := by
  obtain ⟨n, hn⟩ := t
  cases n with
  | zero => exact absurd (Nat.zero_mod _) h
  | succ n => exact if_neg h

/-- The output block stored at point `n` (meaningful at key tile 3): numerator over normaliser. -/
def outAt (c : Dev nD) (n : ℕ) (hn : n < cfg0.N) : Vec F S1x512x1024 .f32 :=
  k0_pay14 (scr m c n hn).2.2 (scr m c n hn).2.1

/-- The region invariant before position `n`: before the first point every scratch buffer holds anything; afterwards
    the three scratch buffers hold what the point before left; the generator register is at some state throughout. -/
def PhiS (c : Dev nD) : (n : ℕ) → n ≤ cfg0.N → sProp 𝕄
  | 0, _ => Pipeline.ΦA spec0 c
  | n + 1, hn => iprop(iprop(owns (c : Thread nD τ) scM fullShare ((scr m c n hn).1) ∗ owns (c : Thread nD τ) scL fullShare ((scr m c n hn).2.1) ∗ owns (c : Thread nD τ) scA fullShare ((scr m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((scr m c n hn).1) ∗ owns (c : Thread nD τ) scL fullShare ((scr m c n hn).2.1) ∗ owns (c : Thread nD τ) scA fullShare ((scr m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((scr m c (n - 1) (by omega)).1) ∗ owns (c : Thread nD τ) scL fullShare ((scr m c (n - 1) (by omega)).2.1) ∗ owns (c : Thread nD τ) scA fullShare ((scr m c (n - 1) (by omega)).2.2)) ∗ (∃ r, prngReg c r)) := by
  cases n with
  | zero => exact absurd rfl hz
  | succ n => rfl

/-- The proof data of the pipeline on core `c`: the arrays as the region finds them; after the body each input's
    buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

end Cert.Kernel.Attn

end
-- ==== Proof.K.Body.lean ====
/-
  The body obligation of the attention pipeline, the run of the whole program, and its frame.

  At every grid point the body is handed the key, query and value blocks, the output's buffer and the three scratch
  buffers; by the point's key tile it is in one of three cases (reset; update; update and store the output block),
  and in each the scratch buffers end at the next point's statistics.  The launch then runs every point in order.
-/
import proofs.«418840_j16930761081022_3_alg».proof.Proof.K.RunC
import proofs.«418840_j16930761081022_3_alg».proof.Proof.K.Data

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and the four windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An input window is live at every point, so the body leaves its buffer at the block it was handed. -/
private theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after_0]
private theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after_1]
private theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after_2]

/-- At a point of key tile 3 the output window is live: its buffer is left at the stored quotient. -/
private theorem leaves_3 (c : Dev nD) (t : Fin cfg0.N) (h : cond3 (grid0.coords t)) :
    (dats m 0 c).leavesExact 3 t = owns (c : Thread nD τ) (ms3 t) fullShare (outAt m c t.val t.isLt) := by
  rw [show (dats m 0 c).leavesExact 3 t = owns (c : Thread nD τ) (ms3 t) fullShare ((dats m 0 c).after 3 t) from by
    unfold Dat.leavesExact; rw [live3 t h], after_3]

/-- At every position the invariant holds, in particular, the three scratch buffers at some contents and the
    generator register at some state: the named statistics are forgotten. -/
private theorem PhiS_forget (c : Dev nD) (n : ℕ) (h : n ≤ cfg0.N) :
    PhiS m c n h ⊢ iprop(iprop((∃ d, owns (c : Thread nD τ) scM fullShare d) ∗ (∃ d, owns (c : Thread nD τ) scL fullShare d) ∗ (∃ d, owns (c : Thread nD τ) scA fullShare d)) ∗ (∃ r, prngReg c r)) := by
  by_cases hz : n = 0
  · rw [PhiS_zero m c n h hz, PhiA_eq]
  · rw [PhiS_pos m c n h hz]
    iintro ⟨⟨HM, HL, HA⟩, Hg⟩
    isplitr [Hg]
    · isplitl [HM]; · iexists _; iexact HM
      isplitl [HL]; · iexists _; iexact HL
      iexists _; iexact HA
    iexact Hg

set_option maxHeartbeats 4800000 in
/-- The body at any point: by the point's key tile one of the three cases applies.  At key tile 0 the scratch
    buffers are handed over at whatever they hold and come back at the reset statistics; at key tiles 1, 2, 3
    they are handed over at what the point before left and come back at its update; at key tile 3 the output's
    buffer comes back at the quotient, elsewhere as it was found.  The inputs' buffers always come back at their
    blocks, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, PhiS_castSucc m c t]
  by_cases h0 : t.val % 4 = 0
  · -- key tile 0: reset
    have hc1 : cond1 (grid0.coords t) := (hcond1 t).mpr h0
    have hc2 : ¬cond2 (grid0.coords t) := fun h => (hcond2 t).mp h h0
    have hc3 : ¬cond3 (grid0.coords t) := fun h => by have := (hcond3 t).mp h; omega
    rw [Dat.leavesExact_idle (dats m 0 c) 3 t (idle3 t hc3) (noFlush3 t hc3), scr_reset m c t h0]
    refine (sep_mono_left (PhiS_forget m c _ _)).trans ?_
    iintro ⟨⟨⟨HM, HL, HA⟩, Hg⟩, Ho, ⟨%d0, H0⟩, ⟨%d1, H1⟩, ⟨%d2, H2⟩, ⟨%d3, H3⟩⟩
    iapply (runA c (grid0.coords t) _ _ _ _ _ _ _ _ _ _ _ _ _ _ hc1 hc2 hc3 (iblk m c 0 t) (iblk m c 1 t) (iblk m c 2 t) _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, HM, HL, HA⟩
    isplitl [HM HL HA Hg]
    · isplitl [HM HL HA]
      · isplitl [HM]; · iexact HM
        isplitl [HL]; · iexact HL
        iexact HA
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc1 : ¬cond1 (grid0.coords t) := fun h => h0 ((hcond1 t).mp h)
    have hc2 : cond2 (grid0.coords t) := (hcond2 t).mpr h0
    rw [PhiS_pos m c _ _ hz, scr_step m c t h0]
    by_cases h3 : t.val % 4 = 3
    · -- key tile 3: update, and the output block is stored
      have hc3 : cond3 (grid0.coords t) := (hcond3 t).mpr h3
      rw [leaves_3 m c t hc3]
      unfold outAt
      rw [scr_step m c t h0]
      iintro ⟨⟨⟨HM, HL, HA⟩, Hg⟩, Ho, ⟨%d0, H0⟩, ⟨%d1, H1⟩, ⟨%d2, H2⟩, ⟨%d3, H3⟩⟩
      iapply (runC c (grid0.coords t) _ _ _ _ _ _ _ _ _ _ _ _ _ _ hc1 hc2 hc3 (iblk m c 0 t) (iblk m c 1 t) (iblk m c 2 t) _ _ _ Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, H3, HM, HL, HA⟩
      isplitl [HM HL HA Hg]
      · isplitl [HM HL HA]
        · isplitl [HM]; · iexact HM
          isplitl [HL]; · iexact HL
          iexact HA
        iexact Hg
      isplitl [Ho]; · iexact Ho
      isplitl [H0]; · iexact H0
      isplitl [H1]; · iexact H1
      isplitl [H2]; · iexact H2
      iexact H3
    · -- key tiles 1 and 2: update only
      have hc3 : ¬cond3 (grid0.coords t) := fun h => h3 ((hcond3 t).mp h)
      rw [Dat.leavesExact_idle (dats m 0 c) 3 t (idle3 t hc3) (noFlush3 t hc3)]
      iintro ⟨⟨⟨HM, HL, HA⟩, Hg⟩, Ho, ⟨%d0, H0⟩, ⟨%d1, H1⟩, ⟨%d2, H2⟩, ⟨%d3, H3⟩⟩
      iapply (runB c (grid0.coords t) _ _ _ _ _ _ _ _ _ _ _ _ _ _ hc1 hc2 hc3 (iblk m c 0 t) (iblk m c 1 t) (iblk m c 2 t) _ _ _ _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitl [HM HL HA Hg]
      · isplitl [HM HL HA]
        · isplitl [HM]; · iexact HM
          isplitl [HL]; · iexact HL
          iexact HA
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class invariant back: the statistics' contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_forget m c _ _

set_option backward.isDefEq.respectTransparency.types false in
/-- Every weakly fair execution of the program terminates, and every final state has the pipeline's arrays at what the
    proof data computes and every other unscoped buffer at what the closing reshape makes of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Attn

end
-- ==== Proof.KI.Conds.lean ====
/-
  The three branches of the attention body, as conditions on the grid point, and where they hold.

  The grid is (batch, query tile, key tile) = 8 × 4 × 4, and the key tile is the fastest coordinate, so the
  point number modulo 4 is the key tile.  The first branch (reset the running statistics) is taken at key tile 0,
  the second (rescale and accumulate) at key tiles 1, 2, 3, the third (normalise and store the output block) at key
  tile 3 only.  The output window is written back exactly at the points of the third branch and is untouched
  elsewhere.  The three scratch buffers (running maximum, running normaliser, running numerator) are the core's
  scoped buffers that are no staging buffer.
-/
import proofs.«418840_j16930761081022_3_alg».proof.Proof.Gen.KernelIdeal.Frame
import proofs.«418840_j16930761081022_3_alg».proof.Proof.Gen.KernelIdeal.Skeleton

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (key tile = 0), as the body computes it from the grid coordinates. -/
abbrev cond1 (i : grid0.Coords) : Prop := (Scalar.cmpi .ne (Scalar.extui (Scalar.cmpi .eq (BitVec.ofNat 32 (i 2).val) 0#32)) 0#32) = 1#1
/-- The second branch's condition (key tile > 0). -/
abbrev cond2 (i : grid0.Coords) : Prop := (Scalar.cmpi .ne (Scalar.extui (Scalar.cmpi .sgt (BitVec.ofNat 32 (i 2).val) 0#32)) 0#32) = 1#1
/-- The third branch's condition (key tile = 3, the last). -/
abbrev cond3 (i : grid0.Coords) : Prop := k0_cond3 i = 1#1

/-- The first branch is taken exactly at the points whose number is 0 modulo 4. -/
theorem hcond1 : ∀ t : Fin cfg0.N, cond1 (grid0.coords t) ↔ t.val % 4 = 0 :=
  (by decide +kernel : ∀ t : Fin grid0.N, cond1 (grid0.coords t) ↔ t.val % 4 = 0)
/-- The second branch is taken exactly at the other points. -/
theorem hcond2 : ∀ t : Fin cfg0.N, cond2 (grid0.coords t) ↔ t.val % 4 ≠ 0 :=
  (by decide +kernel : ∀ t : Fin grid0.N, cond2 (grid0.coords t) ↔ t.val % 4 ≠ 0)
/-- The third branch is taken exactly at the points whose number is 3 modulo 4. -/
theorem hcond3 : ∀ t : Fin cfg0.N, cond3 (grid0.coords t) ↔ t.val % 4 = 3 :=
  (by decide +kernel : ∀ t : Fin grid0.N, cond3 (grid0.coords t) ↔ t.val % 4 = 3)

/-- The coordinates of a point: batch, query tile, key tile. -/
theorem coords_val : ∀ t : Fin cfg0.N, ((grid0.coords t) 0).val = t.val / 16 ∧ ((grid0.coords t) 1).val = t.val / 4 % 4 ∧ ((grid0.coords t) 2).val = t.val % 4 :=
  (by decide +kernel : ∀ t : Fin grid0.N, ((grid0.coords t) 0).val = t.val / 16 ∧ ((grid0.coords t) 1).val = t.val / 4 % 4 ∧ ((grid0.coords t) 2).val = t.val % 4)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle where the third branch is not taken, -/
theorem idle3 : ∀ t : Fin cfg0.N, ¬cond3 (grid0.coords t) → cfg0.idle 3 (grid0.coords t) = true := by decide +kernel
/-- is not written back there, -/
theorem noFlush3 : ∀ t : Fin cfg0.N, ¬cond3 (grid0.coords t) → (cfg0.win 3).flush t = false := by decide +kernel
/-- and is live where it is taken. -/
theorem live3 : ∀ t : Fin cfg0.N, cond3 (grid0.coords t) → cfg0.idle 3 (grid0.coords t) = false := by decide +kernel

/-- Each window's current staging memref at a point, as the pipeline passes it to the body, and its wholeness. -/
abbrev ms0 (t : Fin cfg0.N) : Memref sig .tc .vmem S1x64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1024 .f32 := win0_3.stage (cfg0.slots t 3)
abbrev hs3 (t : Fin cfg0.N) : (ms3 t).IsWhole := hstage0_3 ((cfg0.slots t 3).cast nbuf0_3)
/-- The scratch operands: the running maximum, the running normaliser, the running numerator. -/
abbrev scM : Memref sig .tc .vmem S1x1024 .f32 := Memref.whole cc0_scratch0
abbrev scL : Memref sig .tc .vmem S1x1024 .f32 := Memref.whole cc0_scratch1
abbrev scA : Memref sig .tc .vmem S512x1024 .f32 := Memref.whole cc0_scratch2

/-- The region's invariant with the scratch operands as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.KernelIdeal.Attn

end
-- ==== Proof.KI.RunA.lean ====
/-
  The attention body at a point of key tile 0 (first branch only): it loads the key, query and value blocks,
  forms the score tile, and RESETS the three running statistics — the maximum to the tile's column maxima, the
  normaliser to the column sums of exp (score − maximum), the numerator to the value block times those exponentials.
  Whatever the scratch buffers held is overwritten whole; the output buffer is not touched.
-/
import proofs.«418840_j16930761081022_3_alg».proof.Proof.KI.Conds
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle at offset zero returns the contents the buffer is owned at. -/
private theorem readAt_full {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- One store through the full rectangle at offset zero covers the buffer: whatever it held, it now reads the stored value. -/
private theorem read_store_full {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- The offset vectors of the body's loads and stores are zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

set_option maxHeartbeats 1000000 in
/-- Key tile 0: the inputs' buffers and the output's come back as they were; the scratch buffers, found at anything,
    end at the reset statistics (`k0_pay5`, `k0_pay6`, `k0_pay7` of the loaded blocks). -/
theorem runA (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (hc1 : cond1 i) (hc2 : ¬cond2 i) (hc3 : ¬cond3 i)
    (x0 x1 : Vec F S1x64x1024 .f32) (x2 xi3 : Vec F S1x512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare (k0_pay5 x0 x1) ∗ owns (c : Thread nD τ) arg8 fullShare (k0_pay6 x0 x1) ∗ owns (c : Thread nD τ) arg9 fullShare (k0_pay7 x0 x1 x2)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2
  sl_exec (disch := first | exact hc1 | exact hc2 | exact hc3)
  sl_step
  -- the three loads return the blocks the inputs' buffers are owned at
  rw [readAt_full harg3 off3_zero inb_S1x64x1024_S1x64x1024_0_0_0 x0,
    readAt_full harg4 off3_zero inb_S1x64x1024_S1x64x1024_0_0_0 x1,
    readAt_full harg5 off3_zero inb_S1x512x1024_S1x512x1024_0_0_0 x2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- each scratch buffer was stored whole, so it reads the stored statistic
  isplitl [H7]
  · iexists _; isplitr; · ipureintro; exact read_store_full arg7.view f7 off2_zero inb_S1x1024_S1x1024_0_0 _
    iexact H7
  isplitl [H8]
  · iexists _; isplitr; · ipureintro; exact read_store_full arg8.view f8 off2_zero inb_S1x1024_S1x1024_0_0 _
    iexact H8
  iexists _; isplitr; · ipureintro; exact read_store_full arg9.view f9 off2_zero inb_S512x1024_S512x1024_0_0 _
  iexact H9

end Cert.KernelIdeal.Attn

end
-- ==== Proof.KI.RunB.lean ====
/-
  The attention body at a point of key tile 1 or 2 (second branch only): with the running maximum `s0`, normaliser
  `s1` and numerator `s2` of the earlier key tiles in the scratch buffers, it raises the maximum to cover this
  tile's scores, rescales normaliser and numerator by exp (old maximum − new maximum) and adds this tile's terms.
  The output buffer is not touched.
-/
import proofs.«418840_j16930761081022_3_alg».proof.Proof.KI.RunA
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle at offset zero returns the contents the buffer is owned at. -/
private theorem readAt_full {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- One store through the full rectangle at offset zero covers the buffer: whatever it held, it now reads the stored value. -/
private theorem read_store_full {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- The offset vectors of the body's loads and stores are zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

set_option maxHeartbeats 1000000 in
/-- Key tiles 1 and 2: the scratch buffers go from `s0`, `s1`, `s2` to the updated statistics
    (`k0_pay13`, `k0_pay11`, `k0_pay12`); everything else comes back as it was. -/
theorem runB (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (hc1 : ¬cond1 i) (hc2 : cond2 i) (hc3 : ¬cond3 i)
    (x0 x1 : Vec F S1x64x1024 .f32) (x2 xi3 : Vec F S1x512x1024 .f32) (s0 s1 : Vec F S1x1024 .f32) (s2 : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare (k0_pay13 x0 x1 s0) ∗ owns (c : Thread nD τ) arg8 fullShare (k0_pay11 x0 x1 s0 s1) ∗ owns (c : Thread nD τ) arg9 fullShare (k0_pay12 x0 x1 x2 s0 s2)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  -- every load of the run precedes the store into its buffer, so it returns the contents the buffer was owned at
  rw [readAt_full harg3 off3_zero inb_S1x64x1024_S1x64x1024_0_0_0 x0,
    readAt_full harg4 off3_zero inb_S1x64x1024_S1x64x1024_0_0_0 x1,
    readAt_full harg5 off3_zero inb_S1x512x1024_S1x512x1024_0_0_0 x2,
    readAt_full harg7 off2_zero inb_S1x1024_S1x1024_0_0 s0,
    readAt_full harg8 off2_zero inb_S1x1024_S1x1024_0_0 s1,
    readAt_full harg9 off2_zero inb_S512x1024_S512x1024_0_0 s2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- each scratch buffer was stored whole, so it reads the updated statistic
  isplitl [H7]
  · iexists _; isplitr; · ipureintro; exact read_store_full arg7.view (harg7.unread s0) off2_zero inb_S1x1024_S1x1024_0_0 _
    iexact H7
  isplitl [H8]
  · iexists _; isplitr; · ipureintro; exact read_store_full arg8.view (harg8.unread s1) off2_zero inb_S1x1024_S1x1024_0_0 _
    iexact H8
  iexists _; isplitr; · ipureintro; exact read_store_full arg9.view (harg9.unread s2) off2_zero inb_S512x1024_S512x1024_0_0 _
  iexact H9

end Cert.KernelIdeal.Attn

end
-- ==== Proof.KI.RunC.lean ====
/-
  The attention body at a point of key tile 3 (second and third branch): the update of key tiles 1 and 2, and then
  the output block is stored: the updated numerator divided, column by column, by the updated normaliser.
-/
import proofs.«418840_j16930761081022_3_alg».proof.Proof.KI.RunB
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle at offset zero returns the contents the buffer is owned at. -/
private theorem readAt_full {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- One store through the full rectangle at offset zero covers the buffer: whatever it held, it now reads the stored value. -/
private theorem read_store_full {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- The offset vectors of the body's loads and stores are zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

set_option maxHeartbeats 1000000 in
/-- Key tile 3: the scratch buffers are updated as at key tiles 1 and 2, and the output's buffer, found at anything,
    ends at the quotient `k0_pay14` of the updated numerator by the updated normaliser. -/
theorem runC (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (hc1 : ¬cond1 i) (hc2 : cond2 i) (hc3 : cond3 i)
    (x0 x1 : Vec F S1x64x1024 .f32) (x2 : Vec F S1x512x1024 .f32) (s0 s1 : Vec F S1x1024 .f32) (s2 : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (k0_pay14 (k0_pay12 x0 x1 x2 s0 s2) (k0_pay11 x0 x1 s0 s1))
            ∗ owns (c : Thread nD τ) arg7 fullShare (k0_pay13 x0 x1 s0) ∗ owns (c : Thread nD τ) arg8 fullShare (k0_pay11 x0 x1 s0 s1) ∗ owns (c : Thread nD τ) arg9 fullShare (k0_pay12 x0 x1 x2 s0 s2)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc1 | exact hc2 | exact hc3)
  sl_step
  sl_unfold_run_names
  -- the second branch's loads precede its stores, so they return the contents the buffers were owned at;
  rw [readAt_full harg3 off3_zero inb_S1x64x1024_S1x64x1024_0_0_0 x0,
    readAt_full harg4 off3_zero inb_S1x64x1024_S1x64x1024_0_0_0 x1,
    readAt_full harg5 off3_zero inb_S1x512x1024_S1x512x1024_0_0_0 x2,
    readAt_full harg7 off2_zero inb_S1x1024_S1x1024_0_0 s0,
    readAt_full harg8 off2_zero inb_S1x1024_S1x1024_0_0 s1,
    readAt_full harg9 off2_zero inb_S512x1024_S512x1024_0_0 s2]
  -- the third branch's loads of the numerator and the normaliser follow the second branch's whole stores into
  -- those buffers, so they return the updated statistics
  rw [View.readCov_unit_zero arg9.view off2_zero inb_S512x1024_S512x1024_0_0,
    View.readCov_unit_zero arg8.view off2_zero inb_S1x1024_S1x1024_0_0]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  -- the output's buffer was stored whole, so it reads the quotient
  isplitl [H3]
  · iexists _; isplitr; · ipureintro; exact read_store_full arg6.view f3 off3_zero inb_S1x512x1024_S1x512x1024_0_0_0 _
    iexact H3
  -- each scratch buffer was stored whole, so it reads the updated statistic
  isplitl [H7]
  · iexists _; isplitr; · ipureintro; exact read_store_full arg7.view (harg7.unread s0) off2_zero inb_S1x1024_S1x1024_0_0 _
    iexact H7
  isplitl [H8]
  · iexists _; isplitr; · ipureintro; exact read_store_full arg8.view (harg8.unread s1) off2_zero inb_S1x1024_S1x1024_0_0 _
    iexact H8
  iexists _; isplitr; · ipureintro; exact read_store_full arg9.view (harg9.unread s2) off2_zero inb_S512x1024_S512x1024_0_0 _
  iexact H9

end Cert.KernelIdeal.Attn

end
-- ==== Proof.KI.Data.lean ====
/-
  What the three running statistics hold after each grid point, and the proof data of the pipeline.

  After a point of key tile 0 the scratch buffers hold the reset statistics of that point's blocks; after any
  other point they hold the update of what the point before left.  The output block a point of key tile 3 stores
  is the quotient of the updated numerator by the updated normaliser.
-/
import proofs.«418840_j16930761081022_3_alg».proof.Proof.KI.Conds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The key, query and value blocks a point is handed, at their literal types. -/
abbrev kblk (c : Dev nD) (t : Fin cfg0.N) : Vec F S1x64x1024 .f32 := iblk m c 0 t
abbrev qblk (c : Dev nD) (t : Fin cfg0.N) : Vec F S1x64x1024 .f32 := iblk m c 1 t
abbrev vblk (c : Dev nD) (t : Fin cfg0.N) : Vec F S1x512x1024 .f32 := iblk m c 2 t

/-- The running maximum, normaliser and numerator after the body at point `n`: reset at key tile 0, else the
    update of what the point before left. -/
def scr (c : Dev nD) : (n : ℕ) → n < cfg0.N → Vec F S1x1024 .f32 × Vec F S1x1024 .f32 × Vec F S512x1024 .f32
  | 0, hn => (k0_pay5 (kblk m c ⟨0, hn⟩) (qblk m c ⟨0, hn⟩), k0_pay6 (kblk m c ⟨0, hn⟩) (qblk m c ⟨0, hn⟩),
      k0_pay7 (kblk m c ⟨0, hn⟩) (qblk m c ⟨0, hn⟩) (vblk m c ⟨0, hn⟩))
  | n + 1, hn =>
    if (n + 1) % 4 = 0 then
      (k0_pay5 (kblk m c ⟨n + 1, hn⟩) (qblk m c ⟨n + 1, hn⟩), k0_pay6 (kblk m c ⟨n + 1, hn⟩) (qblk m c ⟨n + 1, hn⟩),
        k0_pay7 (kblk m c ⟨n + 1, hn⟩) (qblk m c ⟨n + 1, hn⟩) (vblk m c ⟨n + 1, hn⟩))
    else
      (k0_pay13 (kblk m c ⟨n + 1, hn⟩) (qblk m c ⟨n + 1, hn⟩) (scr c n (Nat.lt_of_succ_lt hn)).1,
        k0_pay11 (kblk m c ⟨n + 1, hn⟩) (qblk m c ⟨n + 1, hn⟩) (scr c n (Nat.lt_of_succ_lt hn)).1 (scr c n (Nat.lt_of_succ_lt hn)).2.1,
        k0_pay12 (kblk m c ⟨n + 1, hn⟩) (qblk m c ⟨n + 1, hn⟩) (vblk m c ⟨n + 1, hn⟩) (scr c n (Nat.lt_of_succ_lt hn)).1 (scr c n (Nat.lt_of_succ_lt hn)).2.2)

/-- At a point of key tile 0: the reset statistics. -/
theorem scr_reset (c : Dev nD) (t : Fin cfg0.N) (h : t.val % 4 = 0) :
    scr m c t.val t.isLt = (k0_pay5 (kblk m c t) (qblk m c t), k0_pay6 (kblk m c t) (qblk m c t), k0_pay7 (kblk m c t) (qblk m c t) (vblk m c t)) := by
  obtain ⟨n, hn⟩ := t
  cases n with
  | zero => rfl
  | succ n => exact if_pos h

/-- At any other point: the update of what the point before left. -/
theorem scr_step (c : Dev nD) (t : Fin cfg0.N) (h : t.val % 4 ≠ 0) :
    scr m c t.val t.isLt =
      (k0_pay13 (kblk m c t) (qblk m c t) (scr m c (t.val - 1) (Nat.lt_of_le_of_lt (Nat.sub_le _ _) t.isLt)).1,
        k0_pay11 (kblk m c t) (qblk m c t) (scr m c (t.val - 1) (Nat.lt_of_le_of_lt (Nat.sub_le _ _) t.isLt)).1 (scr m c (t.val - 1) (Nat.lt_of_le_of_lt (Nat.sub_le _ _) t.isLt)).2.1,
        k0_pay12 (kblk m c t) (qblk m c t) (vblk m c t) (scr m c (t.val - 1) (Nat.lt_of_le_of_lt (Nat.sub_le _ _) t.isLt)).1 (scr m c (t.val - 1) (Nat.lt_of_le_of_lt (Nat.sub_le _ _) t.isLt)).2.2) := by
  obtain ⟨n, hn⟩ := t
  cases n with
  | zero => exact absurd (Nat.zero_mod _) h
  | succ n => exact if_neg h

/-- The output block stored at point `n` (meaningful at key tile 3): numerator over normaliser. -/
def outAt (c : Dev nD) (n : ℕ) (hn : n < cfg0.N) : Vec F S1x512x1024 .f32 :=
  k0_pay14 (scr m c n hn).2.2 (scr m c n hn).2.1

/-- The region invariant before position `n`: before the first point every scratch buffer holds anything; afterwards
    the three scratch buffers hold what the point before left; the generator register is at some state throughout. -/
def PhiS (c : Dev nD) : (n : ℕ) → n ≤ cfg0.N → sProp 𝕄
  | 0, _ => Pipeline.ΦA spec0 c
  | n + 1, hn => iprop(iprop(owns (c : Thread nD τ) scM fullShare ((scr m c n hn).1) ∗ owns (c : Thread nD τ) scL fullShare ((scr m c n hn).2.1) ∗ owns (c : Thread nD τ) scA fullShare ((scr m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((scr m c n hn).1) ∗ owns (c : Thread nD τ) scL fullShare ((scr m c n hn).2.1) ∗ owns (c : Thread nD τ) scA fullShare ((scr m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((scr m c (n - 1) (by omega)).1) ∗ owns (c : Thread nD τ) scL fullShare ((scr m c (n - 1) (by omega)).2.1) ∗ owns (c : Thread nD τ) scA fullShare ((scr m c (n - 1) (by omega)).2.2)) ∗ (∃ r, prngReg c r)) := by
  cases n with
  | zero => exact absurd rfl hz
  | succ n => rfl

/-- The proof data of the pipeline on core `c`: the arrays as the region finds them; after the body each input's
    buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

end Cert.KernelIdeal.Attn

end
-- ==== Proof.KI.Body.lean ====
/-
  The body obligation of the attention pipeline, the run of the whole program, and its frame.

  At every grid point the body is handed the key, query and value blocks, the output's buffer and the three scratch
  buffers; by the point's key tile it is in one of three cases (reset; update; update and store the output block),
  and in each the scratch buffers end at the next point's statistics.  The launch then runs every point in order.
-/
import proofs.«418840_j16930761081022_3_alg».proof.Proof.KI.RunC
import proofs.«418840_j16930761081022_3_alg».proof.Proof.KI.Data

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and the four windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An input window is live at every point, so the body leaves its buffer at the block it was handed. -/
private theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after_0]
private theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after_1]
private theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after_2]

/-- At a point of key tile 3 the output window is live: its buffer is left at the stored quotient. -/
private theorem leaves_3 (c : Dev nD) (t : Fin cfg0.N) (h : cond3 (grid0.coords t)) :
    (dats m 0 c).leavesExact 3 t = owns (c : Thread nD τ) (ms3 t) fullShare (outAt m c t.val t.isLt) := by
  rw [show (dats m 0 c).leavesExact 3 t = owns (c : Thread nD τ) (ms3 t) fullShare ((dats m 0 c).after 3 t) from by
    unfold Dat.leavesExact; rw [live3 t h], after_3]

/-- At every position the invariant holds, in particular, the three scratch buffers at some contents and the
    generator register at some state: the named statistics are forgotten. -/
private theorem PhiS_forget (c : Dev nD) (n : ℕ) (h : n ≤ cfg0.N) :
    PhiS m c n h ⊢ iprop(iprop((∃ d, owns (c : Thread nD τ) scM fullShare d) ∗ (∃ d, owns (c : Thread nD τ) scL fullShare d) ∗ (∃ d, owns (c : Thread nD τ) scA fullShare d)) ∗ (∃ r, prngReg c r)) := by
  by_cases hz : n = 0
  · rw [PhiS_zero m c n h hz, PhiA_eq]
  · rw [PhiS_pos m c n h hz]
    iintro ⟨⟨HM, HL, HA⟩, Hg⟩
    isplitr [Hg]
    · isplitl [HM]; · iexists _; iexact HM
      isplitl [HL]; · iexists _; iexact HL
      iexists _; iexact HA
    iexact Hg

set_option maxHeartbeats 4800000 in
/-- The body at any point: by the point's key tile one of the three cases applies.  At key tile 0 the scratch
    buffers are handed over at whatever they hold and come back at the reset statistics; at key tiles 1, 2, 3
    they are handed over at what the point before left and come back at its update; at key tile 3 the output's
    buffer comes back at the quotient, elsewhere as it was found.  The inputs' buffers always come back at their
    blocks, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, PhiS_castSucc m c t]
  by_cases h0 : t.val % 4 = 0
  · -- key tile 0: reset
    have hc1 : cond1 (grid0.coords t) := (hcond1 t).mpr h0
    have hc2 : ¬cond2 (grid0.coords t) := fun h => (hcond2 t).mp h h0
    have hc3 : ¬cond3 (grid0.coords t) := fun h => by have := (hcond3 t).mp h; omega
    rw [Dat.leavesExact_idle (dats m 0 c) 3 t (idle3 t hc3) (noFlush3 t hc3), scr_reset m c t h0]
    refine (sep_mono_left (PhiS_forget m c _ _)).trans ?_
    iintro ⟨⟨⟨HM, HL, HA⟩, Hg⟩, Ho, ⟨%d0, H0⟩, ⟨%d1, H1⟩, ⟨%d2, H2⟩, ⟨%d3, H3⟩⟩
    iapply (runA c (grid0.coords t) _ _ _ _ _ _ _ _ _ _ _ _ _ _ hc1 hc2 hc3 (iblk m c 0 t) (iblk m c 1 t) (iblk m c 2 t) _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, HM, HL, HA⟩
    isplitl [HM HL HA Hg]
    · isplitl [HM HL HA]
      · isplitl [HM]; · iexact HM
        isplitl [HL]; · iexact HL
        iexact HA
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc1 : ¬cond1 (grid0.coords t) := fun h => h0 ((hcond1 t).mp h)
    have hc2 : cond2 (grid0.coords t) := (hcond2 t).mpr h0
    rw [PhiS_pos m c _ _ hz, scr_step m c t h0]
    by_cases h3 : t.val % 4 = 3
    · -- key tile 3: update, and the output block is stored
      have hc3 : cond3 (grid0.coords t) := (hcond3 t).mpr h3
      rw [leaves_3 m c t hc3]
      unfold outAt
      rw [scr_step m c t h0]
      iintro ⟨⟨⟨HM, HL, HA⟩, Hg⟩, Ho, ⟨%d0, H0⟩, ⟨%d1, H1⟩, ⟨%d2, H2⟩, ⟨%d3, H3⟩⟩
      iapply (runC c (grid0.coords t) _ _ _ _ _ _ _ _ _ _ _ _ _ _ hc1 hc2 hc3 (iblk m c 0 t) (iblk m c 1 t) (iblk m c 2 t) _ _ _ Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, H3, HM, HL, HA⟩
      isplitl [HM HL HA Hg]
      · isplitl [HM HL HA]
        · isplitl [HM]; · iexact HM
          isplitl [HL]; · iexact HL
          iexact HA
        iexact Hg
      isplitl [Ho]; · iexact Ho
      isplitl [H0]; · iexact H0
      isplitl [H1]; · iexact H1
      isplitl [H2]; · iexact H2
      iexact H3
    · -- key tiles 1 and 2: update only
      have hc3 : ¬cond3 (grid0.coords t) := fun h => h3 ((hcond3 t).mp h)
      rw [Dat.leavesExact_idle (dats m 0 c) 3 t (idle3 t hc3) (noFlush3 t hc3)]
      iintro ⟨⟨⟨HM, HL, HA⟩, Hg⟩, Ho, ⟨%d0, H0⟩, ⟨%d1, H1⟩, ⟨%d2, H2⟩, ⟨%d3, H3⟩⟩
      iapply (runB c (grid0.coords t) _ _ _ _ _ _ _ _ _ _ _ _ _ _ hc1 hc2 hc3 (iblk m c 0 t) (iblk m c 1 t) (iblk m c 2 t) _ _ _ _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitl [HM HL HA Hg]
      · isplitl [HM HL HA]
        · isplitl [HM]; · iexact HM
          isplitl [HL]; · iexact HL
          iexact HA
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class invariant back: the statistics' contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_forget m c _ _

set_option backward.isDefEq.respectTransparency.types false in
/-- Every weakly fair execution of the program terminates, and every final state has the pipeline's arrays at what the
    proof data computes and every other unscoped buffer at what the closing reshape makes of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Attn

end
-- ==== Proof.AttnMath.lean ====
/-
  The mathematics of this certificate, over the real numbers and free of any program.

  A query attends to 4096 keys with scores `S m`; the weights are the softmax of the scores and the result
  is the weighted sum of the values `V m`.  The keys come in four tiles of 1024.  The online form keeps, after
  tile `k`, the running maximum `stM S k` of the scores seen so far, the running normaliser
  `stL S k = ∑ exp (S m - stM S k)` and the running numerator `stA S V k = ∑ V m * exp (S m - stM S k)`
  (both over the keys of tiles `0 … k`); moving to the next tile rescales both by `exp (old max - new max)`,
  which is exact because `exp (a - b) * exp (c - a) = exp (c - b)`.  After the last tile the quotient
  `stA / stL` is the softmax-weighted sum (`online_eq`).
-/
import Idealize.ShloMosaic.PureOps.Ideal

noncomputable section

namespace Cert.AttnMath

/-- The largest score inside key tile `k` (keys `k * 1024 … k * 1024 + 1023`). -/
def tmax (S : ℕ → ℝ) (k : ℕ) : ℝ :=
  (Finset.univ : Finset (Fin 1024)).sup' ⟨0, Finset.mem_univ _⟩ (fun j => S (k * 1024 + j.val))

/-- The running maximum after tiles `0 … k`. -/
def stM (S : ℕ → ℝ) : ℕ → ℝ
  | 0 => tmax S 0
  | k + 1 => max (stM S k) (tmax S (k + 1))

/-- The running normaliser after tiles `0 … k`, relative to the running maximum. -/
def stL (S : ℕ → ℝ) : ℕ → ℝ
  | 0 => ∑ j : Fin 1024, Real.exp (S (0 * 1024 + j.val) - tmax S 0)
  | k + 1 => Real.exp (stM S k - max (stM S k) (tmax S (k + 1))) * stL S k
      + ∑ j : Fin 1024, Real.exp (S ((k + 1) * 1024 + j.val) - max (stM S k) (tmax S (k + 1)))

/-- The running numerator after tiles `0 … k`, relative to the running maximum. -/
def stA (S V : ℕ → ℝ) : ℕ → ℝ
  | 0 => ∑ j : Fin 1024, V (0 * 1024 + j.val) * Real.exp (S (0 * 1024 + j.val) - tmax S 0)
  | k + 1 => Real.exp (stM S k - max (stM S k) (tmax S (k + 1))) * stA S V k
      + ∑ j : Fin 1024, V ((k + 1) * 1024 + j.val) * Real.exp (S ((k + 1) * 1024 + j.val) - max (stM S k) (tmax S (k + 1)))

/-- The largest of all 4096 scores. -/
def gmax (S : ℕ → ℝ) : ℝ :=
  (Finset.univ : Finset (Fin 4096)).sup' ⟨0, Finset.mem_univ _⟩ (fun m => S m.val)

/-- The softmax-weighted sum of the values, in the reference's arrangement: each weight is normalised first. -/
def softmaxOut (S V : ℕ → ℝ) : ℝ :=
  ∑ m : Fin 4096, V m.val * (Real.exp (S m.val - gmax S) * (1 / ∑ m' : Fin 4096, Real.exp (S m'.val - gmax S)))

/-- Rescaling the tile sums: moving the reference point of the exponent from `a` to `c`. -/
private theorem exp_shift (x a c : ℝ) : Real.exp (x - a) * Real.exp (a - c) = Real.exp (x - c) := by
  rw [← Real.exp_add]
  congr 1
  ring

/-- The running maximum unfolds to the `max` used in the recursion. -/
private theorem stM_succ (S : ℕ → ℝ) (k : ℕ) : stM S (k + 1) = max (stM S k) (tmax S (k + 1)) := rfl

/-- For every reference point `c`, the normaliser rescaled from the running maximum to `c` is the plain
sum of `exp (S i - c)` over the keys seen so far.  The running maximum drops out. -/
private theorem stL_shift (S : ℕ → ℝ) (c : ℝ) (k : ℕ) :
    stL S k * Real.exp (stM S k - c) = ∑ i ∈ Finset.range ((k + 1) * 1024), Real.exp (S i - c) := by
  induction k with
  | zero =>
    show (∑ j : Fin 1024, Real.exp (S (0 * 1024 + j.val) - tmax S 0)) * Real.exp (tmax S 0 - c) = _
    rw [Finset.sum_mul]
    simp only [exp_shift, zero_mul, zero_add, one_mul]
    exact Fin.sum_univ_eq_sum_range (fun i => Real.exp (S i - c)) 1024
  | succ k ih =>
    have hr : (k + 1 + 1) * 1024 = (k + 1) * 1024 + 1024 := by ring
    rw [hr, Finset.sum_range_add, ← ih, stM_succ]
    show (Real.exp (stM S k - max (stM S k) (tmax S (k + 1))) * stL S k
        + ∑ j : Fin 1024, Real.exp (S ((k + 1) * 1024 + j.val) - max (stM S k) (tmax S (k + 1))))
        * Real.exp (max (stM S k) (tmax S (k + 1)) - c) = _
    rw [add_mul, Finset.sum_mul]
    simp only [exp_shift]
    rw [← Fin.sum_univ_eq_sum_range (fun i => Real.exp (S ((k + 1) * 1024 + i) - c)) 1024]
    congr 1
    linear_combination (stL S k) * exp_shift (stM S k) (max (stM S k) (tmax S (k + 1))) c

/-- The same for the numerator. -/
private theorem stA_shift (S V : ℕ → ℝ) (c : ℝ) (k : ℕ) :
    stA S V k * Real.exp (stM S k - c)
      = ∑ i ∈ Finset.range ((k + 1) * 1024), V i * Real.exp (S i - c) := by
  induction k with
  | zero =>
    show (∑ j : Fin 1024, V (0 * 1024 + j.val) * Real.exp (S (0 * 1024 + j.val) - tmax S 0))
        * Real.exp (tmax S 0 - c) = _
    rw [Finset.sum_mul]
    simp only [mul_assoc, exp_shift, zero_mul, zero_add, one_mul]
    exact Fin.sum_univ_eq_sum_range (fun i => V i * Real.exp (S i - c)) 1024
  | succ k ih =>
    have hr : (k + 1 + 1) * 1024 = (k + 1) * 1024 + 1024 := by ring
    rw [hr, Finset.sum_range_add, ← ih, stM_succ]
    show (Real.exp (stM S k - max (stM S k) (tmax S (k + 1))) * stA S V k
        + ∑ j : Fin 1024, V ((k + 1) * 1024 + j.val)
            * Real.exp (S ((k + 1) * 1024 + j.val) - max (stM S k) (tmax S (k + 1))))
        * Real.exp (max (stM S k) (tmax S (k + 1)) - c) = _
    rw [add_mul, Finset.sum_mul]
    simp only [mul_assoc, exp_shift]
    rw [← Fin.sum_univ_eq_sum_range (fun i => V ((k + 1) * 1024 + i) * Real.exp (S ((k + 1) * 1024 + i) - c)) 1024]
    congr 1
    linear_combination (stA S V k) * exp_shift (stM S k) (max (stM S k) (tmax S (k + 1))) c

/-- The normaliser is positive: a sum of exponentials. -/
theorem stL_pos (S : ℕ → ℝ) (k : ℕ) : 0 < stL S k := by
  induction k with
  | zero =>
    exact Finset.sum_pos (fun _ _ => Real.exp_pos _) ⟨0, Finset.mem_univ _⟩
  | succ k ih =>
    exact add_pos (mul_pos (Real.exp_pos _) ih)
      (Finset.sum_pos (fun _ _ => Real.exp_pos _) ⟨0, Finset.mem_univ _⟩)

/-- After the fourth tile the online quotient is the softmax-weighted sum.  Both rescaling identities are
taken at the reference point `gmax S`: numerator and normaliser then carry the same positive factor
`exp (stM S 3 - gmax S)`, which cancels in the quotient, so the value of the running maximum is never needed. -/
theorem online_eq (S V : ℕ → ℝ) : stA S V 3 * (1 / stL S 3) = softmaxOut S V := by
  have hL := stL_shift S (gmax S) 3
  have hA := stA_shift S V (gmax S) 3
  have h4 : (3 + 1) * 1024 = 4096 := by norm_num
  rw [h4] at hL hA
  have hE : Real.exp (stM S 3 - gmax S) ≠ 0 := (Real.exp_pos _).ne'
  have hL0 : stL S 3 ≠ 0 := (stL_pos S 3).ne'
  unfold softmaxOut
  rw [Fin.sum_univ_eq_sum_range (fun i => Real.exp (S i - gmax S)) 4096, ← hL]
  simp only [← mul_assoc]
  rw [← Finset.sum_mul,
    Fin.sum_univ_eq_sum_range (fun i => V i * Real.exp (S i - gmax S)) 4096, ← hA]
  field_simp

end Cert.AttnMath

end
-- ==== Proof.AttnSpec.lean ====
/-
  The specification both programs meet, stated once over the real numbers.

  The inputs are finite, so every array entry is a real number (`re3` reads an extended-real array as reals, with
  0 outside the array's bounds; `re3_coe` says the array IS that real where its entries are finite).  With keys
  `K b c m`, queries `Q b c q`, values `V b cv m` and the scale `sc = 1/8` (the literal both programs print), the
  score of key `m` for query `q` is `∑ c, K b c m * (Q b c q * sc)`, and the result at `(b, cv, q)` is the
  softmax-weighted sum of `V b cv ·` — which the online recursion over four key tiles computes (`outR`, by
  `Cert.AttnMath.online_eq`).  `G` is that result as an extended-real array.
-/
import Idealize.ShloMosaic.PureOps.Ideal
import Idealize.ShloMosaic.Lib.ValueIdx
import proofs.«418840_j16930761081022_3_alg».proof.Proof.AttnMath

noncomputable section

namespace Cert.AttnSpec

open Idealize.ShloMosaic Idealize.ShloMosaic.ValueIdx Cert.AttnMath

/-- An extended-real array of rank 3 read as reals (0 outside its bounds). -/
def re3 {n0 n1 n2 : ℕ} (X : (⟨3, ![n0, n1, n2]⟩ : Shape).Idx → EReal) (a b c : ℕ) : ℝ :=
  if h : a < n0 ∧ b < n1 ∧ c < n2 then (X (ix3 ⟨a, h.1⟩ ⟨b, h.2.1⟩ ⟨c, h.2.2⟩)).toReal else 0

/-- Every entry is a real number. -/
def Fin3 {n0 n1 n2 : ℕ} (X : (⟨3, ![n0, n1, n2]⟩ : Shape).Idx → EReal) : Prop := ∀ i, X i ≠ ⊤ ∧ X i ≠ ⊥

/-- Every entry of an array of any shape is a real number. -/
def FinAll {s : Shape} (X : s.Idx → EReal) : Prop := ∀ i, X i ≠ ⊤ ∧ X i ≠ ⊥

/-- Where the entries are finite the array is its real reading. -/
theorem re3_coe {n0 n1 n2 : ℕ} {X : (⟨3, ![n0, n1, n2]⟩ : Shape).Idx → EReal} (hX : Fin3 X)
    (a : Fin n0) (b : Fin n1) (c : Fin n2) : X (ix3 a b c) = ((re3 X a.val b.val c.val : ℝ) : EReal) := by
  unfold re3
  rw [dif_pos ⟨a.isLt, b.isLt, c.isLt⟩]
  exact (EReal.coe_toReal (hX _).1 (hX _).2).symm

/-- The scale both programs multiply the queries by: the real number the literal 0x3E000000 denotes (one eighth). -/
def sc : ℝ := (Ideal.ofBits .f32 0x3E000000#32).toReal

/-- The literal is that real number. -/
theorem sc_eq : Ideal.ofBits .f32 0x3E000000#32 = ((sc : ℝ) : EReal) := by
  -- sign 0, exponent 124, fraction 0: the pattern denotes 2 ^ (124 - 127) = 1/8, a real number
  have h : Ideal.ofBits .f32 0x3E000000#32 = (((1 : ℝ) / 8 : ℝ) : EReal) := by
    simp [Ideal.ofBits, Ideal.ieee, -EReal.coe_mul]; norm_num
  unfold sc
  rw [h, EReal.toReal_coe]

/-- The score of key `m` for query `q` in batch `b`. -/
def score (K Q : ℕ → ℕ → ℕ → ℝ) (b m q : ℕ) : ℝ := ∑ c : Fin 64, K b c.val m * (Q b c.val q * sc)

/-- The result at `(b, cv, q)` as the online recursion over the four key tiles leaves it. -/
def outR (K Q V : ℕ → ℕ → ℕ → ℝ) (b cv q : ℕ) : ℝ :=
  stA (fun m => score K Q b m q) (fun m => V b cv m) 3 * (1 / stL (fun m => score K Q b m q) 3)

/-- The same result is the softmax-weighted sum of the values. -/
theorem outR_eq (K Q V : ℕ → ℕ → ℕ → ℝ) (b cv q : ℕ) :
    outR K Q V b cv q = softmaxOut (fun m => score K Q b m q) (fun m => V b cv m) :=
  online_eq _ _

/-- The result array, from the key, query and value arrays. -/
def G (mk qk : (⟨3, ![8, 64, 4096]⟩ : Shape).Idx → EReal) (mv : (⟨3, ![8, 512, 4096]⟩ : Shape).Idx → EReal) :
    (⟨3, ![8, 512, 4096]⟩ : Shape).Idx → EReal :=
  fun j => ((outR (re3 mk) (re3 qk) (re3 mv) (j 0).val (j 1).val (j 2).val : ℝ) : EReal)

end Cert.AttnSpec

end
-- ==== Proof.PayIdx.lean ====
/-
  The body's arithmetic read at an index, at the exact (extended-real) instance, on blocks whose entries are real.

  With a key block `kr c j`, a query block `qr c q` and a value block `vr cv j` (64 channels, 1024 keys, 1024
  queries, 512 value channels), the score tile is `tS j q = ∑ c, kr c j * (qr c q * sc)` and its column maximum
  `tM q`.  The reset statistics are `tM q`, `∑ j, exp (tS j q − tM q)` and `∑ j, vr cv j * exp (tS j q − tM q)`;
  the update from a running maximum `m0 q`, normaliser `l0 q` and numerator `a0 cv q` raises the maximum to
  `max (m0 q) (tM q)`, multiplies both sums by `exp (m0 q − new maximum)` and adds this tile's terms; the output is
  numerator times the normaliser's reciprocal.  Every value is a real number: nothing here meets an infinity.
-/
import proofs.«418840_j16930761081022_3_alg».proof.Proof.Gen.KernelIdeal.Skeleton
import proofs.«418840_j16930761081022_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Cert.AttnMath Cert.AttnSpec

/-- The score of key `j` of the tile for query `q` of the tile. -/
def tS (kr qr : ℕ → ℕ → ℝ) (j q : ℕ) : ℝ := ∑ c : Fin 64, kr c.val j * (qr c.val q * sc)

/-- The largest score of the tile for query `q`. -/
def tM (kr qr : ℕ → ℕ → ℝ) (q : ℕ) : ℝ :=
  (Finset.univ : Finset (Fin 1024)).sup' ⟨0, Finset.mem_univ _⟩ (fun j => tS kr qr j.val q)

/-- The coercion of a finite sum of reals is the sum of the coercions. -/
private theorem coe_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- The coercion of the larger of two reals is the larger of the coercions. -/
private theorem coe_max_real (x y : ℝ) : ((max x y : ℝ) : EReal) = max (x : EReal) (y : EReal) :=
  EReal.coe_strictMono.monotone.map_max

/-- The fold of the maximum from the bottom element over coercions of reals is the coercion of the largest of them. -/
private theorem fold_max_coe (f : Fin 1024 → ℝ) (H : (Finset.univ : Finset (Fin 1024)).Nonempty) :
    (Finset.univ : Finset (Fin 1024)).fold max (⊥ : EReal) (fun k => ((f k : ℝ) : EReal))
      = (((Finset.univ : Finset (Fin 1024)).sup' H f : ℝ) : EReal) := by
  have h1 : (((Finset.univ : Finset (Fin 1024)).sup' H f : ℝ) : EReal)
      = (Finset.univ : Finset (Fin 1024)).sup' H (fun k => ((f k : ℝ) : EReal)) :=
    Finset.comp_sup'_eq_sup'_comp H (fun r : ℝ => (r : EReal)) (fun x y => coe_max_real x y)
  rw [h1, Finset.sup'_eq_sup]
  rfl

/-- The word 0xFF800000 denotes the bottom element. -/
private theorem ofBits_neg_inf : Ideal.ofBits .f32 0xFF800000#32 = (⊥ : EReal) := by
  simp [Ideal.ofBits, Ideal.ieee]

/-! ### The two contractions' operand indices -/

private theorem lhs_dotA_0 (i : S1024x1024.Idx) (q : dot_S64x1024_S64x1024_S1024x1024_0_0_1_1_n_n.contr.Idx) :
    (dot_S64x1024_S64x1024_S1024x1024_0_0_1_1_n_n.lhsIdx i q 0).val = (q ⟨0, by decide⟩).val :=
  dot_S64x1024_S64x1024_S1024x1024_0_0_1_1_n_n.lhsIdx_val_of_single rfl i q
private theorem lhs_dotA_1 (i : S1024x1024.Idx) (q : dot_S64x1024_S64x1024_S1024x1024_0_0_1_1_n_n.contr.Idx) :
    (dot_S64x1024_S64x1024_S1024x1024_0_0_1_1_n_n.lhsIdx i q 1).val = (i 0).val := by
  unfold DotDims.lhsIdx
  rw [dif_neg (show ¬(1 : Fin S64x1024.rank) ∈ dot_S64x1024_S64x1024_S1024x1024_0_0_1_1_n_n.lhsBatch by decide), dif_pos (show (1 : Fin S64x1024.rank) ∈ dot_S64x1024_S64x1024_S1024x1024_0_0_1_1_n_n.lhsNonContracting by decide)]
  rfl
private theorem rhs_dotA_0 (i : S1024x1024.Idx) (q : dot_S64x1024_S64x1024_S1024x1024_0_0_1_1_n_n.contr.Idx) :
    (dot_S64x1024_S64x1024_S1024x1024_0_0_1_1_n_n.rhsIdx i q 0).val = (q ⟨0, by decide⟩).val :=
  dot_S64x1024_S64x1024_S1024x1024_0_0_1_1_n_n.rhsIdx_val_of_single rfl i q
private theorem rhs_dotA_1 (i : S1024x1024.Idx) (q : dot_S64x1024_S64x1024_S1024x1024_0_0_1_1_n_n.contr.Idx) :
    (dot_S64x1024_S64x1024_S1024x1024_0_0_1_1_n_n.rhsIdx i q 1).val = (i 1).val := by
  unfold DotDims.rhsIdx
  rw [dif_neg (show ¬(1 : Fin S64x1024.rank) ∈ dot_S64x1024_S64x1024_S1024x1024_0_0_1_1_n_n.rhsBatch by decide), dif_pos (show (1 : Fin S64x1024.rank) ∈ dot_S64x1024_S64x1024_S1024x1024_0_0_1_1_n_n.rhsNonContracting by decide)]
  rfl

private theorem lhs_dotB_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhs_dotB_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhs_dotB_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhs_dotB_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

section
variable (x0 x1 : Vec Ideal S1x64x1024 .f32) (x2 : Vec Ideal S1x512x1024 .f32)
  (kr qr vr : ℕ → ℕ → ℝ)
  (hk : ∀ (c : Fin 64) (j : Fin 1024), x0 (ix3 (0 : Fin 1) c j) = ((kr c.val j.val : ℝ) : EReal))
  (hq : ∀ (c : Fin 64) (q : Fin 1024), x1 (ix3 (0 : Fin 1) c q) = ((qr c.val q.val : ℝ) : EReal))
  (hv : ∀ (cv : Fin 512) (j : Fin 1024), x2 (ix3 (0 : Fin 1) cv j) = ((vr cv.val j.val : ℝ) : EReal))

include hk hq in
/-- The score tile at an index. -/
private theorem pay2_apply (j q : Fin 1024) :
    k0_pay2 (F := Ideal) x0 x1 (ix2 j q) = ((tS kr qr j.val q.val : ℝ) : EReal) := by
  unfold k0_pay2 tS
  simp only [matmul]
  refine (Ideal.matmul_constant_zero_apply _ none _ _ _).trans ?_
  rw [← Equiv.sum_comp (contrEquiv1 dot_S64x1024_S64x1024_S1024x1024_0_0_1_1_n_n 64 rfl rfl).symm, coe_sum]
  refine Finset.sum_congr rfl fun c _ => ?_
  have hc := contrEquiv1_symm_val dot_S64x1024_S64x1024_S1024x1024_0_0_1_1_n_n 64 rfl rfl c
  have el : dot_S64x1024_S64x1024_S1024x1024_0_0_1_1_n_n.lhsIdx (ix2 j q) ((contrEquiv1 dot_S64x1024_S64x1024_S1024x1024_0_0_1_1_n_n 64 rfl rfl).symm c) = ix2 c j := funext fun a => Fin.ext (by
    match a with
    | ⟨0, _⟩ => exact (lhs_dotA_0 _ _).trans hc
    | ⟨1, _⟩ => exact lhs_dotA_1 _ _)
  have er : dot_S64x1024_S64x1024_S1024x1024_0_0_1_1_n_n.rhsIdx (ix2 j q) ((contrEquiv1 dot_S64x1024_S64x1024_S1024x1024_0_0_1_1_n_n 64 rfl rfl).symm c) = ix2 c q := funext fun a => Fin.ext (by
    match a with
    | ⟨0, _⟩ => exact (rhs_dotA_0 _ _).trans hc
    | ⟨1, _⟩ => exact rhs_dotA_1 _ _)
  rw [el, er, truncf_apply, truncf_apply, mulf_apply, broadcast_apply, shapeCast_1ab_ab_apply, shapeCast_1ab_ab_apply,
    hk, hq]
  show ((kr c.val j.val : ℝ) : EReal) * (((qr c.val q.val : ℝ) : EReal) * Ideal.ofBits .f32 0x3E000000#32) = _
  rw [sc_eq, ← EReal.coe_mul, ← EReal.coe_mul]

include hk hq in
/-- The column maximum at an index. -/
private theorem pay3_apply (q : Fin 1024) :
    k0_pay3 (F := Ideal) x0 x1 (ix2 (0 : Fin 1) q) = ((tM kr qr q.val : ℝ) : EReal) := by
  unfold k0_pay3 tM
  rw [shapeCast_a_1a_apply]
  refine (Ideal.multiReduction_maximumf_single (k0_pay2 (F := Ideal) x0 x1) 0xFF800000#32 reduces_S1024x1024_S1024
    (.inl rfl) rfl (ix1 q)).trans ?_
  rw [Ideal.ofBits_def, ofBits_neg_inf]
  have hf : ((k0_pay2 (F := Ideal) x0 x1) ∘ reduces_S1024x1024_S1024.lift (ix1 q))
      = fun k : Fin 1024 => ((tS kr qr k.val q.val : ℝ) : EReal) := funext fun k => by
    have e : reduces_S1024x1024_S1024.lift (ix1 q) k = ix2 k q := funext fun a => Fin.ext (by
      match a with
      | ⟨0, _⟩ => rfl
      | ⟨1, _⟩ => rfl)
    show k0_pay2 (F := Ideal) x0 x1 (reduces_S1024x1024_S1024.lift (ix1 q) k) = _
    rw [e]
    exact pay2_apply x0 x1 kr qr hk hq k q
  rw [hf]
  exact fold_max_coe _ _

include hk hq in
/-- The exponential tile of the reset branch at an index. -/
private theorem pay4_apply (j q : Fin 1024) :
    k0_pay4 (F := Ideal) x0 x1 (ix2 j q) = ((Real.exp (tS kr qr j.val q.val - tM kr qr q.val) : ℝ) : EReal) := by
  unfold k0_pay4
  show Ideal.exp (k0_pay2 (F := Ideal) x0 x1 (ix2 j q)
    - broadcastTo S1024x1024 (k0_pay3 (F := Ideal) x0 x1) broadcasts_S1x1024_S1024x1024 (ix2 j q)) = _
  rw [broadcastTo_1b_ab_apply, pay2_apply x0 x1 kr qr hk hq, pay3_apply x0 x1 kr qr hk hq, ← EReal.coe_sub, Ideal.exp_coe]

/-- The index a column reduction reads: key `k` of query `q`. -/
private theorem lift_col (q k : Fin 1024) : reduces_S1024x1024_S1024.lift (ix1 q) k = ix2 k q :=
  funext fun a => Fin.ext (by
    match a with
    | ⟨0, _⟩ => rfl
    | ⟨1, _⟩ => rfl)

/-- A column sum of a tile of reals is the coercion of the real sum. -/
private theorem colsum_apply (P : FVec Ideal S1024x1024 .f32) (pr : ℕ → ℕ → ℝ)
    (hP : ∀ j q : Fin 1024, P (ix2 j q) = ((pr j.val q.val : ℝ) : EReal)) (q : Fin 1024) :
    multiReduction (F := Ideal) .add [0] S1024 P 0x00000000#32 reduces_S1024x1024_S1024 (.inl rfl) rfl (ix1 q)
      = ((∑ j : Fin 1024, pr j.val q.val : ℝ) : EReal) := by
  refine (Ideal.multiReduction_add_single P 0x00000000#32 reduces_S1024x1024_S1024 (.inl rfl) rfl (ix1 q)).trans ?_
  rw [coe_sum]
  refine Finset.sum_congr rfl fun k _ => ?_
  rw [lift_col q k]
  exact hP k q

include hv in
/-- The value block at an index. -/
private theorem pay1_apply (cv : Fin 512) (j : Fin 1024) :
    k0_pay1 (F := Ideal) x2 (ix2 cv j) = ((vr cv.val j.val : ℝ) : EReal) := by
  unfold k0_pay1
  rw [truncf_apply, shapeCast_1ab_ab_apply, hv]

include hv in
/-- The value block times a tile of reals, at an index: the real sum over the keys. -/
private theorem dotB_apply (P : FVec Ideal S1024x1024 .bf16) (pr : ℕ → ℕ → ℝ)
    (hP : ∀ j q : Fin 1024, P (ix2 j q) = ((pr j.val q.val : ℝ) : EReal)) (cv : Fin 512) (q : Fin 1024) :
    matmul dot_S512x1024_S1024x1024_S512x1024_1_0_0_1_n_n none (k0_pay1 (F := Ideal) x2) P
        (constant (F := Ideal) S512x1024 .f32 0x00000000#32) (ix2 cv q)
      = ((∑ j : Fin 1024, vr cv.val j.val * pr j.val q.val : ℝ) : EReal) := by
  simp only [matmul]
  refine (Ideal.matmul_constant_zero_apply _ none _ _ _).trans ?_
  rw [← Equiv.sum_comp (contrEquiv1 dot_S512x1024_S1024x1024_S512x1024_1_0_0_1_n_n 1024 rfl rfl).symm, coe_sum]
  refine Finset.sum_congr rfl fun k _ => ?_
  have hc := contrEquiv1_symm_val dot_S512x1024_S1024x1024_S512x1024_1_0_0_1_n_n 1024 rfl rfl k
  have el : dot_S512x1024_S1024x1024_S512x1024_1_0_0_1_n_n.lhsIdx (ix2 cv q) ((contrEquiv1 dot_S512x1024_S1024x1024_S512x1024_1_0_0_1_n_n 1024 rfl rfl).symm k) = ix2 cv k := funext fun a => Fin.ext (by
    match a with
    | ⟨0, _⟩ => exact lhs_dotB_0 _ _
    | ⟨1, _⟩ => exact (lhs_dotB_1 _ _).trans hc)
  have er : dot_S512x1024_S1024x1024_S512x1024_1_0_0_1_n_n.rhsIdx (ix2 cv q) ((contrEquiv1 dot_S512x1024_S1024x1024_S512x1024_1_0_0_1_n_n 1024 rfl rfl).symm k) = ix2 k q := funext fun a => Fin.ext (by
    match a with
    | ⟨0, _⟩ => exact (rhs_dotB_0 _ _).trans hc
    | ⟨1, _⟩ => exact rhs_dotB_1 _ _)
  rw [el, er, pay1_apply x2 vr hv, hP, ← EReal.coe_mul]

include hk hq in
/-- The reset maximum. -/
theorem pay5_apply (q : Fin 1024) :
    k0_pay5 (F := Ideal) x0 x1 (ix2 (0 : Fin 1) q) = ((tM kr qr q.val : ℝ) : EReal) := by
  unfold k0_pay5
  rw [shapeCast_self]
  exact pay3_apply x0 x1 kr qr hk hq q

include hk hq in
/-- The reset normaliser. -/
theorem pay6_apply (q : Fin 1024) :
    k0_pay6 (F := Ideal) x0 x1 (ix2 (0 : Fin 1) q)
      = ((∑ j : Fin 1024, Real.exp (tS kr qr j.val q.val - tM kr qr q.val) : ℝ) : EReal) := by
  unfold k0_pay6
  rw [shapeCast_self, shapeCast_a_1a_apply]
  exact colsum_apply (k0_pay4 (F := Ideal) x0 x1) (fun j q => Real.exp (tS kr qr j q - tM kr qr q))
    (fun j q => pay4_apply x0 x1 kr qr hk hq j q) q

include hk hq hv in
/-- The reset numerator. -/
theorem pay7_apply (cv : Fin 512) (q : Fin 1024) :
    k0_pay7 (F := Ideal) x0 x1 x2 (ix2 cv q)
      = ((∑ j : Fin 1024, vr cv.val j.val * Real.exp (tS kr qr j.val q.val - tM kr qr q.val) : ℝ) : EReal) := by
  unfold k0_pay7
  rw [shapeCast_self]
  exact dotB_apply x2 vr hv (truncf .bf16 (k0_pay4 (F := Ideal) x0 x1) bitsLt_bf16_f32)
    (fun j q => Real.exp (tS kr qr j q - tM kr qr q))
    (fun j q => (truncf_apply (ψ := .bf16) (k0_pay4 (F := Ideal) x0 x1) bitsLt_bf16_f32 (ix2 j q)).trans
      (pay4_apply x0 x1 kr qr hk hq j q)) cv q

variable (s0 s1 : Vec Ideal S1x1024 .f32) (s2 : Vec Ideal S512x1024 .f32) (m0 l0 : ℕ → ℝ) (a0 : ℕ → ℕ → ℝ)
  (hs0 : ∀ q : Fin 1024, s0 (ix2 (0 : Fin 1) q) = ((m0 q.val : ℝ) : EReal))
  (hs1 : ∀ q : Fin 1024, s1 (ix2 (0 : Fin 1) q) = ((l0 q.val : ℝ) : EReal))
  (hs2 : ∀ (cv : Fin 512) (q : Fin 1024), s2 (ix2 cv q) = ((a0 cv.val q.val : ℝ) : EReal))

include hk hq hs0 in
/-- The raised maximum at an index. -/
private theorem pay8_apply (q : Fin 1024) :
    k0_pay8 (F := Ideal) x0 x1 s0 (ix2 (0 : Fin 1) q) = ((max (m0 q.val) (tM kr qr q.val) : ℝ) : EReal) := by
  unfold k0_pay8
  rw [maximumf_apply, hs0, pay3_apply x0 x1 kr qr hk hq, ← coe_max_real]

include hk hq hs0 in
/-- The factor that rescales the running sums, at an index. -/
private theorem pay9_apply (q : Fin 1024) :
    k0_pay9 (F := Ideal) x0 x1 s0 (ix2 (0 : Fin 1) q)
      = ((Real.exp (m0 q.val - max (m0 q.val) (tM kr qr q.val)) : ℝ) : EReal) := by
  unfold k0_pay9
  show Ideal.exp (s0 (ix2 (0 : Fin 1) q) - k0_pay8 (F := Ideal) x0 x1 s0 (ix2 (0 : Fin 1) q)) = _
  rw [hs0, pay8_apply x0 x1 kr qr hk hq s0 m0 hs0, ← EReal.coe_sub, Ideal.exp_coe]

include hk hq hs0 in
/-- The exponential tile of the update branch at an index. -/
private theorem pay10_apply (j q : Fin 1024) :
    k0_pay10 (F := Ideal) x0 x1 s0 (ix2 j q)
      = ((Real.exp (tS kr qr j.val q.val - max (m0 q.val) (tM kr qr q.val)) : ℝ) : EReal) := by
  unfold k0_pay10
  show Ideal.exp (k0_pay2 (F := Ideal) x0 x1 (ix2 j q)
    - broadcastTo S1024x1024 (k0_pay8 (F := Ideal) x0 x1 s0) broadcasts_S1x1024_S1024x1024 (ix2 j q)) = _
  rw [broadcastTo_1b_ab_apply, pay2_apply x0 x1 kr qr hk hq, pay8_apply x0 x1 kr qr hk hq s0 m0 hs0, ← EReal.coe_sub,
    Ideal.exp_coe]

include hk hq hs0 in
/-- The updated maximum. -/
theorem pay13_apply (q : Fin 1024) :
    k0_pay13 (F := Ideal) x0 x1 s0 (ix2 (0 : Fin 1) q) = ((max (m0 q.val) (tM kr qr q.val) : ℝ) : EReal) := by
  unfold k0_pay13
  rw [shapeCast_self]
  exact pay8_apply x0 x1 kr qr hk hq s0 m0 hs0 q

include hk hq hs0 hs1 in
/-- The updated normaliser. -/
theorem pay11_apply (q : Fin 1024) :
    k0_pay11 (F := Ideal) x0 x1 s0 s1 (ix2 (0 : Fin 1) q)
      = ((Real.exp (m0 q.val - max (m0 q.val) (tM kr qr q.val)) * l0 q.val
          + ∑ j : Fin 1024, Real.exp (tS kr qr j.val q.val - max (m0 q.val) (tM kr qr q.val)) : ℝ) : EReal) := by
  unfold k0_pay11
  rw [shapeCast_self, addf_apply, mulf_apply, shapeCast_a_1a_apply, pay9_apply x0 x1 kr qr hk hq s0 m0 hs0, hs1,
    colsum_apply (k0_pay10 (F := Ideal) x0 x1 s0) (fun j q => Real.exp (tS kr qr j q - max (m0 q) (tM kr qr q)))
      (fun j q => pay10_apply x0 x1 kr qr hk hq s0 m0 hs0 j q) q,
    ← EReal.coe_mul, ← EReal.coe_add]

include hk hq hv hs0 hs2 in
/-- The updated numerator. -/
theorem pay12_apply (cv : Fin 512) (q : Fin 1024) :
    k0_pay12 (F := Ideal) x0 x1 x2 s0 s2 (ix2 cv q)
      = ((Real.exp (m0 q.val - max (m0 q.val) (tM kr qr q.val)) * a0 cv.val q.val
          + ∑ j : Fin 1024, vr cv.val j.val * Real.exp (tS kr qr j.val q.val - max (m0 q.val) (tM kr qr q.val)) : ℝ) : EReal) := by
  unfold k0_pay12
  rw [shapeCast_self, addf_apply, mulf_apply, broadcastTo_1b_ab_apply, pay9_apply x0 x1 kr qr hk hq s0 m0 hs0, hs2,
    dotB_apply x2 vr hv (truncf .bf16 (k0_pay10 (F := Ideal) x0 x1 s0) bitsLt_bf16_f32)
      (fun j q => Real.exp (tS kr qr j q - max (m0 q) (tM kr qr q)))
      (fun j q => (truncf_apply (ψ := .bf16) (k0_pay10 (F := Ideal) x0 x1 s0) bitsLt_bf16_f32 (ix2 j q)).trans
        (pay10_apply x0 x1 kr qr hk hq s0 m0 hs0 j q)) cv q,
    ← EReal.coe_mul, ← EReal.coe_add]

end

/-- The output block: numerator times the reciprocal of a nonzero normaliser. -/
theorem pay14_apply (acc : Vec Ideal S512x1024 .f32) (l : Vec Ideal S1x1024 .f32) (a0 : ℕ → ℕ → ℝ) (l0 : ℕ → ℝ)
    (hacc : ∀ (cv : Fin 512) (q : Fin 1024), acc (ix2 cv q) = ((a0 cv.val q.val : ℝ) : EReal))
    (hl : ∀ q : Fin 1024, l (ix2 (0 : Fin 1) q) = ((l0 q.val : ℝ) : EReal))
    (cv : Fin 512) (q : Fin 1024) (hl0 : l0 q.val ≠ 0) :
    k0_pay14 (F := Ideal) acc l (ix3 (0 : Fin 1) cv q) = ((a0 cv.val q.val * (1 / l0 q.val) : ℝ) : EReal) := by
  unfold k0_pay14
  rw [shapeCast_ab_1ab_apply, divf_apply, broadcastTo_1b_ab_apply, hacc, hl, Ideal.div_coe hl0, ← EReal.coe_mul]

end Cert.KernelIdeal.AttnValue

end
-- ==== Proof.BlockRead.lean ====
/-
  The blocks a grid point is handed, read entry by entry off the arrays the region finds.

  The region's three arrays are the arguments with their two trailing axes merged: keys and queries
  [8, 64, 4096], values [8, 512, 4096].  Point `t` is (batch, query tile, key tile) = (t / 16, t / 4 mod 4, t mod 4);
  its key block is keys `(t mod 4) * 1024 …` of batch `t / 16`, its query block queries `(t / 4 mod 4) * 1024 …`,
  its value block the values at the key block's keys.  Where the arrays are finite each entry is a real number.
-/
import proofs.«418840_j16930761081022_3_alg».proof.Proof.KI.Data
import proofs.«418840_j16930761081022_3_alg».proof.Proof.AttnSpec
import Idealize.ShloMosaic.Lib.ValueIdx
import Idealize.ShloMosaic.Lib.Pipeline.Value
import Idealize.ShloMosaic.Lib.StableHlo.Run

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Cert.AttnMath Cert.AttnSpec
open Cert.KernelIdeal.Attn

variable (m : (ℓ : Loc nD τ sig) → Buf (Elt Ideal) ℓ)

/-- The key, query and value arrays as the region finds them. -/
abbrev mkA (c : Dev nD) : (⟨3, ![8, 64, 4096]⟩ : Shape).Idx → EReal := V m c main_v0
abbrev qkA (c : Dev nD) : (⟨3, ![8, 64, 4096]⟩ : Shape).Idx → EReal := V m c main_v1
abbrev mvA (c : Dev nD) : (⟨3, ![8, 512, 4096]⟩ : Shape).Idx → EReal := V m c main_v2

/-- They are the arguments with the two trailing axes merged. -/
theorem mkA_eq (c : Dev nD) : mkA m c = shapeCast S8x64x4096 (m ((c : Thread nD τ).loc main_arg0)) shapeCasts_S8x64x64x64_S8x64x4096 := by
  dsimp only [mkA, Gen.V, Gen.V0]
  simp only [Gen.hostOps0, List.flatten_cons, List.flatten_nil, List.append_nil]
  after_results
  rfl
theorem qkA_eq (c : Dev nD) : qkA m c = shapeCast S8x64x4096 (m ((c : Thread nD τ).loc main_arg1)) shapeCasts_S8x64x64x64_S8x64x4096 := by
  dsimp only [qkA, Gen.V, Gen.V0]
  simp only [Gen.hostOps0, List.flatten_cons, List.flatten_nil, List.append_nil]
  after_results
  rfl
theorem mvA_eq (c : Dev nD) : mvA m c = shapeCast S8x512x4096 (m ((c : Thread nD τ).loc main_arg2)) shapeCasts_S8x512x64x64_S8x512x4096 := by
  dsimp only [mvA, Gen.V, Gen.V0]
  simp only [Gen.hostOps0, List.flatten_cons, List.flatten_nil, List.append_nil]
  after_results
  rfl

/-- An entry of an array with merged axes is the entry of the original array at the index with the same row-major
    position, so if every entry of the original is a real number then so is every entry of the merged one. -/
private theorem fin3_merge {s : Shape} {n0 n1 n2 : ℕ} (X : s.Idx → EReal) (hs : s.ShapeCasts ⟨3, ![n0, n1, n2]⟩)
    (h : FinAll X) : Fin3 (shapeCast ⟨3, ![n0, n1, n2]⟩ X hs) := by
  intro i
  exact h (Shape.reshapeEquiv hs i)

/-- Merging axes keeps every entry, so finite arguments give finite arrays. -/
theorem fin3_mkA (c : Dev nD) (h : FinAll (m ((c : Thread nD τ).loc main_arg0) : S8x64x64x64.Idx → EReal)) : Fin3 (mkA m c) := by
  rw [mkA_eq]
  exact fin3_merge _ _ h
theorem fin3_qkA (c : Dev nD) (h : FinAll (m ((c : Thread nD τ).loc main_arg1) : S8x64x64x64.Idx → EReal)) : Fin3 (qkA m c) := by
  rw [qkA_eq]
  exact fin3_merge _ _ h
theorem fin3_mvA (c : Dev nD) (h : FinAll (m ((c : Thread nD τ).loc main_arg2) : S8x512x64x64.Idx → EReal)) : Fin3 (mvA m c) := by
  rw [mvA_eq]
  exact fin3_merge _ _ h

/-- A point's number is below 8 · 4 · 4 = 128. -/
private theorem pt_lt (t : Fin cfg0.N) : t.val < 128 := lt_of_lt_of_eq t.isLt N_0

/-- The block indices of the three input windows at point `t`: the key and value windows sit at
    (batch, 0, key tile) = (t / 16, 0, t mod 4), the query window at (batch, 0, query tile) = (t / 16, 0, t / 4 mod 4).
    Checked at each of the 128 points. -/
private theorem idx_k : ∀ t : Fin cfg0.N, win0_0.index t (0 : Fin 3) = t.val / 16 ∧ win0_0.index t (1 : Fin 3) = 0
    ∧ win0_0.index t (2 : Fin 3) = t.val % 4 :=
  (by decide +kernel : ∀ t : Fin grid0.N, win0_0.index t (0 : Fin 3) = t.val / 16 ∧ win0_0.index t (1 : Fin 3) = 0
    ∧ win0_0.index t (2 : Fin 3) = t.val % 4)
private theorem idx_q : ∀ t : Fin cfg0.N, win0_1.index t (0 : Fin 3) = t.val / 16 ∧ win0_1.index t (1 : Fin 3) = 0
    ∧ win0_1.index t (2 : Fin 3) = t.val / 4 % 4 :=
  (by decide +kernel : ∀ t : Fin grid0.N, win0_1.index t (0 : Fin 3) = t.val / 16 ∧ win0_1.index t (1 : Fin 3) = 0
    ∧ win0_1.index t (2 : Fin 3) = t.val / 4 % 4)
private theorem idx_v : ∀ t : Fin cfg0.N, win0_2.index t (0 : Fin 3) = t.val / 16 ∧ win0_2.index t (1 : Fin 3) = 0
    ∧ win0_2.index t (2 : Fin 3) = t.val % 4 :=
  (by decide +kernel : ∀ t : Fin grid0.N, win0_2.index t (0 : Fin 3) = t.val / 16 ∧ win0_2.index t (1 : Fin 3) = 0
    ∧ win0_2.index t (2 : Fin 3) = t.val % 4)

/-- Reading ANY array of the keys' shape through the key window's block at point `t`: the block's entry (0, cc, j)
    is the array's entry (t / 16, cc, (t mod 4) · 1024 + j), since on each axis a block's entry sits at
    block index × block size + its own coordinate, and the block sizes are 1, 64, 1024. -/
private theorem read_k (A : S8x64x4096.Idx → EReal) (t : Fin cfg0.N) (cc : Fin 64) (j : Fin 1024) :
    ((cfg0.win 0).blk t).view.read (Elt Ideal) A (ix3 (0 : Fin 1) cc j)
      = A (ix3 (⟨t.val / 16, by have := pt_lt t; omega⟩ : Fin 8) cc
          (⟨t.val % 4 * 1024 + j.val, by have := j.isLt; omega⟩ : Fin 4096)) := by
  obtain ⟨e0, e1, e2⟩ := idx_k t
  show A (((cfg0.win 0).blk t).view.emb (ix3 (0 : Fin 1) cc j)) = A _
  congr 1
  funext a; apply Fin.ext
  match a with
  | ⟨0, _⟩ => show win0_0.index t (0 : Fin 3) * 1 + 1 * (0 : Fin 1).val = t.val / 16; omega
  | ⟨1, _⟩ => show win0_0.index t (1 : Fin 3) * 64 + 1 * cc.val = cc.val; omega
  | ⟨2, _⟩ => show win0_0.index t (2 : Fin 3) * 1024 + 1 * j.val = t.val % 4 * 1024 + j.val; omega

/-- The same through the query window: entry (0, cc, q) is the array's entry (t / 16, cc, (t / 4 mod 4) · 1024 + q). -/
private theorem read_q (A : S8x64x4096.Idx → EReal) (t : Fin cfg0.N) (cc : Fin 64) (q : Fin 1024) :
    ((cfg0.win 1).blk t).view.read (Elt Ideal) A (ix3 (0 : Fin 1) cc q)
      = A (ix3 (⟨t.val / 16, by have := pt_lt t; omega⟩ : Fin 8) cc
          (⟨t.val / 4 % 4 * 1024 + q.val, by have := q.isLt; omega⟩ : Fin 4096)) := by
  obtain ⟨e0, e1, e2⟩ := idx_q t
  show A (((cfg0.win 1).blk t).view.emb (ix3 (0 : Fin 1) cc q)) = A _
  congr 1
  funext a; apply Fin.ext
  match a with
  | ⟨0, _⟩ => show win0_1.index t (0 : Fin 3) * 1 + 1 * (0 : Fin 1).val = t.val / 16; omega
  | ⟨1, _⟩ => show win0_1.index t (1 : Fin 3) * 64 + 1 * cc.val = cc.val; omega
  | ⟨2, _⟩ => show win0_1.index t (2 : Fin 3) * 1024 + 1 * q.val = t.val / 4 % 4 * 1024 + q.val; omega

/-- The same through the value window, whose blocks have 512 rows: entry (0, cv, j) is the array's entry
    (t / 16, cv, (t mod 4) · 1024 + j). -/
private theorem read_v (A : S8x512x4096.Idx → EReal) (t : Fin cfg0.N) (cv : Fin 512) (j : Fin 1024) :
    ((cfg0.win 2).blk t).view.read (Elt Ideal) A (ix3 (0 : Fin 1) cv j)
      = A (ix3 (⟨t.val / 16, by have := pt_lt t; omega⟩ : Fin 8) cv
          (⟨t.val % 4 * 1024 + j.val, by have := j.isLt; omega⟩ : Fin 4096)) := by
  obtain ⟨e0, e1, e2⟩ := idx_v t
  show A (((cfg0.win 2).blk t).view.emb (ix3 (0 : Fin 1) cv j)) = A _
  congr 1
  funext a; apply Fin.ext
  match a with
  | ⟨0, _⟩ => show win0_2.index t (0 : Fin 3) * 1 + 1 * (0 : Fin 1).val = t.val / 16; omega
  | ⟨1, _⟩ => show win0_2.index t (1 : Fin 3) * 512 + 1 * cv.val = cv.val; omega
  | ⟨2, _⟩ => show win0_2.index t (2 : Fin 3) * 1024 + 1 * j.val = t.val % 4 * 1024 + j.val; omega

/-- The key block of point `t`, entry by entry. -/
theorem kblk_re (c : Dev nD) (hK : Fin3 (mkA m c)) (t : Fin cfg0.N) (cc : Fin 64) (j : Fin 1024) :
    kblk m c t (ix3 (0 : Fin 1) cc j) = ((re3 (mkA m c) (t.val / 16) cc.val (t.val % 4 * 1024 + j.val) : ℝ) : EReal) := by
  show ((cfg0.win 0).blk t).view.read (Elt Ideal) (mkA m c) (ix3 (0 : Fin 1) cc j) = _
  rw [read_k]
  exact re3_coe hK _ cc _

/-- The query block of point `t`, entry by entry. -/
theorem qblk_re (c : Dev nD) (hQ : Fin3 (qkA m c)) (t : Fin cfg0.N) (cc : Fin 64) (q : Fin 1024) :
    qblk m c t (ix3 (0 : Fin 1) cc q) = ((re3 (qkA m c) (t.val / 16) cc.val (t.val / 4 % 4 * 1024 + q.val) : ℝ) : EReal) := by
  show ((cfg0.win 1).blk t).view.read (Elt Ideal) (qkA m c) (ix3 (0 : Fin 1) cc q) = _
  rw [read_q]
  exact re3_coe hQ _ cc _

/-- The value block of point `t`, entry by entry. -/
theorem vblk_re (c : Dev nD) (hV : Fin3 (mvA m c)) (t : Fin cfg0.N) (cv : Fin 512) (j : Fin 1024) :
    vblk m c t (ix3 (0 : Fin 1) cv j) = ((re3 (mvA m c) (t.val / 16) cv.val (t.val % 4 * 1024 + j.val) : ℝ) : EReal) := by
  show ((cfg0.win 2).blk t).view.read (Elt Ideal) (mvA m c) (ix3 (0 : Fin 1) cv j) = _
  rw [read_v]
  exact re3_coe hV _ cv _

end Cert.KernelIdeal.AttnValue

end
-- ==== Proof.Invariant.lean ====
/-
  What the three running statistics hold after each grid point, in closed form.

  Fix a point `t` = (batch b, query tile, key tile k) and a query column `q` of its tile, the global query
  `qq = (t / 4 mod 4) * 1024 + q`.  With `S m = score b m qq` over all 4096 keys, after the body at `t` the
  running maximum at `q` is `stM S k`, the normaliser `stL S k` and the numerator at `(cv, q)` is
  `stA S (V b cv ·) k`: at key tile 0 by the reset formulas, at a later tile by the update formulas applied to what
  the point before (same batch and query tile, key tile k − 1) left.  At key tile 3 the stored output block is therefore
  the online quotient `outR`.
-/
import proofs.«418840_j16930761081022_3_alg».proof.Proof.PayIdx
import proofs.«418840_j16930761081022_3_alg».proof.Proof.BlockRead

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Cert.AttnMath Cert.AttnSpec
open Cert.KernelIdeal.Attn

/-
  One tile's arithmetic against the recursion, free of the grid.  The blocks are the keys and values of key tile
  `kt` and the queries of query tile `qt` of batch `b`; for the query column `q` the tile's score of key `j` is the
  score of the global key `kt * 1024 + j` for the global query `qt * 1024 + q`, and the tile's column maximum is
  `tmax` of that score sequence at tile `kt`.
-/
section Tile

variable (x0 x1 : Vec Ideal S1x64x1024 .f32) (x2 : Vec Ideal S1x512x1024 .f32)
  (K Q V : ℕ → ℕ → ℕ → ℝ) (b kt qt : ℕ)
  (hk : ∀ (c : Fin 64) (j : Fin 1024), x0 (ix3 (0 : Fin 1) c j) = ((K b c.val (kt * 1024 + j.val) : ℝ) : EReal))
  (hq : ∀ (c : Fin 64) (q : Fin 1024), x1 (ix3 (0 : Fin 1) c q) = ((Q b c.val (qt * 1024 + q.val) : ℝ) : EReal))
  (hv : ∀ (cv : Fin 512) (j : Fin 1024), x2 (ix3 (0 : Fin 1) cv j) = ((V b cv.val (kt * 1024 + j.val) : ℝ) : EReal))

/-- The tile's score is the global score. -/
private theorem tS_score (j q : ℕ) :
    tS (fun cc j => K b cc (kt * 1024 + j)) (fun cc q => Q b cc (qt * 1024 + q)) j q
      = score K Q b (kt * 1024 + j) (qt * 1024 + q) := rfl

/-- The tile's column maximum is the recursion's tile maximum. -/
private theorem tM_tmax (q : ℕ) :
    tM (fun cc j => K b cc (kt * 1024 + j)) (fun cc q => Q b cc (qt * 1024 + q)) q
      = tmax (fun m' => score K Q b m' (qt * 1024 + q)) kt := rfl

include hk hq in
/-- At key tile 0 the reset maximum is the recursion's first maximum. -/
private theorem reset_M (hkt : kt = 0) (q : Fin 1024) :
    k0_pay5 (F := Ideal) x0 x1 (ix2 (0 : Fin 1) q)
      = ((stM (fun m' => score K Q b m' (qt * 1024 + q.val)) kt : ℝ) : EReal) := by
  subst hkt
  refine (pay5_apply (x0 := x0) (x1 := x1) (kr := fun cc j => K b cc (0 * 1024 + j))
    (qr := fun cc q => Q b cc (qt * 1024 + q)) (hk := hk) (hq := hq) q).trans ?_
  rfl

include hk hq in
/-- At key tile 0 the reset normaliser is the recursion's first normaliser. -/
private theorem reset_L (hkt : kt = 0) (q : Fin 1024) :
    k0_pay6 (F := Ideal) x0 x1 (ix2 (0 : Fin 1) q)
      = ((stL (fun m' => score K Q b m' (qt * 1024 + q.val)) kt : ℝ) : EReal) := by
  subst hkt
  refine (pay6_apply (x0 := x0) (x1 := x1) (kr := fun cc j => K b cc (0 * 1024 + j))
    (qr := fun cc q => Q b cc (qt * 1024 + q)) (hk := hk) (hq := hq) q).trans ?_
  rfl

include hk hq hv in
/-- At key tile 0 the reset numerator is the recursion's first numerator. -/
private theorem reset_A (hkt : kt = 0) (cv : Fin 512) (q : Fin 1024) :
    k0_pay7 (F := Ideal) x0 x1 x2 (ix2 cv q)
      = ((stA (fun m' => score K Q b m' (qt * 1024 + q.val)) (fun m' => V b cv.val m') kt : ℝ) : EReal) := by
  subst hkt
  refine (pay7_apply (x0 := x0) (x1 := x1) (x2 := x2) (kr := fun cc j => K b cc (0 * 1024 + j))
    (qr := fun cc q => Q b cc (qt * 1024 + q)) (vr := fun cv j => V b cv (0 * 1024 + j))
    (hk := hk) (hq := hq) (hv := hv) cv q).trans ?_
  rfl

variable (k : ℕ) (s0 s1 : Vec Ideal S1x1024 .f32) (s2 : Vec Ideal S512x1024 .f32)
  (hs0 : ∀ q : Fin 1024, s0 (ix2 (0 : Fin 1) q)
      = ((stM (fun m' => score K Q b m' (qt * 1024 + q.val)) k : ℝ) : EReal))
  (hs1 : ∀ q : Fin 1024, s1 (ix2 (0 : Fin 1) q)
      = ((stL (fun m' => score K Q b m' (qt * 1024 + q.val)) k : ℝ) : EReal))
  (hs2 : ∀ (cv : Fin 512) (q : Fin 1024), s2 (ix2 cv q)
      = ((stA (fun m' => score K Q b m' (qt * 1024 + q.val)) (fun m' => V b cv.val m') k : ℝ) : EReal))

include hk hq hs0 in
/-- At key tile `k + 1` the updated maximum is the recursion's next maximum. -/
private theorem step_M (hkt : kt = k + 1) (q : Fin 1024) :
    k0_pay13 (F := Ideal) x0 x1 s0 (ix2 (0 : Fin 1) q)
      = ((stM (fun m' => score K Q b m' (qt * 1024 + q.val)) kt : ℝ) : EReal) := by
  subst hkt
  refine (pay13_apply (x0 := x0) (x1 := x1) (kr := fun cc j => K b cc ((k + 1) * 1024 + j))
    (qr := fun cc q => Q b cc (qt * 1024 + q)) (hk := hk) (hq := hq) (s0 := s0)
    (m0 := fun q => stM (fun m' => score K Q b m' (qt * 1024 + q)) k) (hs0 := hs0) q).trans ?_
  rfl

include hk hq hs0 hs1 in
/-- At key tile `k + 1` the updated normaliser is the recursion's next normaliser. -/
private theorem step_L (hkt : kt = k + 1) (q : Fin 1024) :
    k0_pay11 (F := Ideal) x0 x1 s0 s1 (ix2 (0 : Fin 1) q)
      = ((stL (fun m' => score K Q b m' (qt * 1024 + q.val)) kt : ℝ) : EReal) := by
  subst hkt
  refine (pay11_apply (x0 := x0) (x1 := x1) (kr := fun cc j => K b cc ((k + 1) * 1024 + j))
    (qr := fun cc q => Q b cc (qt * 1024 + q)) (hk := hk) (hq := hq) (s0 := s0) (s1 := s1)
    (m0 := fun q => stM (fun m' => score K Q b m' (qt * 1024 + q)) k)
    (l0 := fun q => stL (fun m' => score K Q b m' (qt * 1024 + q)) k) (hs0 := hs0) (hs1 := hs1) q).trans ?_
  rfl

include hk hq hv hs0 hs2 in
/-- At key tile `k + 1` the updated numerator is the recursion's next numerator. -/
private theorem step_A (hkt : kt = k + 1) (cv : Fin 512) (q : Fin 1024) :
    k0_pay12 (F := Ideal) x0 x1 x2 s0 s2 (ix2 cv q)
      = ((stA (fun m' => score K Q b m' (qt * 1024 + q.val)) (fun m' => V b cv.val m') kt : ℝ) : EReal) := by
  subst hkt
  refine (pay12_apply (x0 := x0) (x1 := x1) (x2 := x2) (kr := fun cc j => K b cc ((k + 1) * 1024 + j))
    (qr := fun cc q => Q b cc (qt * 1024 + q)) (vr := fun cv j => V b cv ((k + 1) * 1024 + j))
    (hk := hk) (hq := hq) (hv := hv) (s0 := s0) (s2 := s2)
    (m0 := fun q => stM (fun m' => score K Q b m' (qt * 1024 + q)) k)
    (a0 := fun cv q => stA (fun m' => score K Q b m' (qt * 1024 + q)) (fun m' => V b cv m') k)
    (hs0 := hs0) (hs2 := hs2) cv q).trans ?_
  rfl

end Tile

variable (m : (ℓ : Loc nD τ sig) → Buf (Elt Ideal) ℓ)

/-- The closed form at point number `n`, by induction on `n`: a point of key tile 0 resets, any other point updates
    what point `n - 1` left, and point `n - 1` has the same batch and query tile and the key tile before. -/
private theorem scr_eq_aux (c : Dev nD) (hK : Fin3 (mkA m c)) (hQ : Fin3 (qkA m c)) (hV : Fin3 (mvA m c)) :
    ∀ (n : ℕ) (hn : n < cfg0.N),
    (∀ q : Fin 1024, (scr m c n hn).1 (ix2 (0 : Fin 1) q)
        = ((stM (fun m' => score (re3 (mkA m c)) (re3 (qkA m c)) (n / 16) m' (n / 4 % 4 * 1024 + q.val)) (n % 4) : ℝ) : EReal))
    ∧ (∀ q : Fin 1024, (scr m c n hn).2.1 (ix2 (0 : Fin 1) q)
        = ((stL (fun m' => score (re3 (mkA m c)) (re3 (qkA m c)) (n / 16) m' (n / 4 % 4 * 1024 + q.val)) (n % 4) : ℝ) : EReal))
    ∧ (∀ (cv : Fin 512) (q : Fin 1024), (scr m c n hn).2.2 (ix2 cv q)
        = ((stA (fun m' => score (re3 (mkA m c)) (re3 (qkA m c)) (n / 16) m' (n / 4 % 4 * 1024 + q.val))
              (fun m' => re3 (mvA m c) (n / 16) cv.val m') (n % 4) : ℝ) : EReal)) := by
  intro n
  induction n using Nat.strong_induction_on with
  | _ n ih =>
    intro hn
    by_cases h : n % 4 = 0
    · have e := scr_reset m c ⟨n, hn⟩ h
      dsimp only at e
      rw [e]
      dsimp only
      refine ⟨fun q => ?_, fun q => ?_, fun cv q => ?_⟩
      · exact reset_M (kblk m c ⟨n, hn⟩) (qblk m c ⟨n, hn⟩) (re3 (mkA m c)) (re3 (qkA m c)) (n / 16) (n % 4) (n / 4 % 4)
          (kblk_re m c hK ⟨n, hn⟩) (qblk_re m c hQ ⟨n, hn⟩) h q
      · exact reset_L (kblk m c ⟨n, hn⟩) (qblk m c ⟨n, hn⟩) (re3 (mkA m c)) (re3 (qkA m c)) (n / 16) (n % 4) (n / 4 % 4)
          (kblk_re m c hK ⟨n, hn⟩) (qblk_re m c hQ ⟨n, hn⟩) h q
      · exact reset_A (kblk m c ⟨n, hn⟩) (qblk m c ⟨n, hn⟩) (vblk m c ⟨n, hn⟩) (re3 (mkA m c)) (re3 (qkA m c)) (re3 (mvA m c))
          (n / 16) (n % 4) (n / 4 % 4)
          (kblk_re m c hK ⟨n, hn⟩) (qblk_re m c hQ ⟨n, hn⟩) (vblk_re m c hV ⟨n, hn⟩) h cv q
    · have hn' : n - 1 < cfg0.N := Nat.lt_of_le_of_lt (Nat.sub_le _ _) hn
      have e := scr_step m c ⟨n, hn⟩ h
      dsimp only at e
      rw [e]
      dsimp only
      obtain ⟨k, hk1⟩ : ∃ k, n % 4 = k + 1 := ⟨n % 4 - 1, by omega⟩
      have e1 : (n - 1) / 16 = n / 16 := by omega
      have e2 : (n - 1) / 4 % 4 = n / 4 % 4 := by omega
      have e3 : (n - 1) % 4 = k := by omega
      have ih' := ih (n - 1) (by omega) hn'
      rw [e1, e2, e3] at ih'
      obtain ⟨ihM, ihL, ihA⟩ := ih'
      refine ⟨fun q => ?_, fun q => ?_, fun cv q => ?_⟩
      · exact step_M (kblk m c ⟨n, hn⟩) (qblk m c ⟨n, hn⟩) (re3 (mkA m c)) (re3 (qkA m c)) (n / 16) (n % 4) (n / 4 % 4)
          (kblk_re m c hK ⟨n, hn⟩) (qblk_re m c hQ ⟨n, hn⟩) k (scr m c (n - 1) hn').1 ihM hk1 q
      · exact step_L (kblk m c ⟨n, hn⟩) (qblk m c ⟨n, hn⟩) (re3 (mkA m c)) (re3 (qkA m c)) (n / 16) (n % 4) (n / 4 % 4)
          (kblk_re m c hK ⟨n, hn⟩) (qblk_re m c hQ ⟨n, hn⟩) k (scr m c (n - 1) hn').1 (scr m c (n - 1) hn').2.1 ihM ihL hk1 q
      · exact step_A (kblk m c ⟨n, hn⟩) (qblk m c ⟨n, hn⟩) (vblk m c ⟨n, hn⟩) (re3 (mkA m c)) (re3 (qkA m c)) (re3 (mvA m c))
          (n / 16) (n % 4) (n / 4 % 4)
          (kblk_re m c hK ⟨n, hn⟩) (qblk_re m c hQ ⟨n, hn⟩) (vblk_re m c hV ⟨n, hn⟩) k
          (scr m c (n - 1) hn').1 (scr m c (n - 1) hn').2.2 ihM ihA hk1 cv q

/-- After the body at point `t` the scratch buffers hold the online recursion's statistics at key tile `t mod 4`. -/
theorem scr_eq (c : Dev nD) (hK : Fin3 (mkA m c)) (hQ : Fin3 (qkA m c)) (hV : Fin3 (mvA m c)) (t : Fin cfg0.N) :
    (∀ q : Fin 1024, (scr m c t.val t.isLt).1 (ix2 (0 : Fin 1) q)
        = ((stM (fun m' => score (re3 (mkA m c)) (re3 (qkA m c)) (t.val / 16) m' (t.val / 4 % 4 * 1024 + q.val)) (t.val % 4) : ℝ) : EReal))
    ∧ (∀ q : Fin 1024, (scr m c t.val t.isLt).2.1 (ix2 (0 : Fin 1) q)
        = ((stL (fun m' => score (re3 (mkA m c)) (re3 (qkA m c)) (t.val / 16) m' (t.val / 4 % 4 * 1024 + q.val)) (t.val % 4) : ℝ) : EReal))
    ∧ (∀ (cv : Fin 512) (q : Fin 1024), (scr m c t.val t.isLt).2.2 (ix2 cv q)
        = ((stA (fun m' => score (re3 (mkA m c)) (re3 (qkA m c)) (t.val / 16) m' (t.val / 4 % 4 * 1024 + q.val))
              (fun m' => re3 (mvA m c) (t.val / 16) cv.val m') (t.val % 4) : ℝ) : EReal)) := by
  exact scr_eq_aux m c hK hQ hV t.val t.isLt

/-- At a point of key tile 3 the stored output block is the online quotient. -/
theorem outAt_eq (c : Dev nD) (hK : Fin3 (mkA m c)) (hQ : Fin3 (qkA m c)) (hV : Fin3 (mvA m c)) (t : Fin cfg0.N) (ht : t.val % 4 = 3)
    (cv : Fin 512) (q : Fin 1024) :
    outAt m c t.val t.isLt (ix3 (0 : Fin 1) cv q)
      = ((outR (re3 (mkA m c)) (re3 (qkA m c)) (re3 (mvA m c)) (t.val / 16) cv.val (t.val / 4 % 4 * 1024 + q.val) : ℝ) : EReal) := by
  obtain ⟨_, hL, hA⟩ := scr_eq m c hK hQ hV t
  rw [ht] at hL hA
  unfold outAt
  refine (pay14_apply (scr m c t.val t.isLt).2.2 (scr m c t.val t.isLt).2.1
    (fun cv q => stA (fun m' => score (re3 (mkA m c)) (re3 (qkA m c)) (t.val / 16) m' (t.val / 4 % 4 * 1024 + q))
      (fun m' => re3 (mvA m c) (t.val / 16) cv m') 3)
    (fun q => stL (fun m' => score (re3 (mkA m c)) (re3 (qkA m c)) (t.val / 16) m' (t.val / 4 % 4 * 1024 + q)) 3)
    hA hL cv q (ne_of_gt (stL_pos _ 3))).trans ?_
  rfl

end Cert.KernelIdeal.AttnValue

end
-- ==== Proof.Final.lean ====
/-
  The kernel program's result.

  The output window is written back at the points of key tile 3, one block per (batch, query tile), and those 32
  blocks tile the [8, 512, 4096] array; each holds the online quotient at its entries, so the array the region leaves
  is the specification's `G` of the region's key, query and value arrays, and the program's result is `G` with its
  last axis split back into two.
-/
import proofs.«418840_j16930761081022_3_alg».proof.Proof.KI.Body
import proofs.«418840_j16930761081022_3_alg».proof.Proof.Invariant

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Cert.AttnMath Cert.AttnSpec
open Cert.KernelIdeal.Attn

variable (m : (ℓ : Loc nD τ sig) → Buf (Elt Ideal) ℓ) (ρ : Dev nD → PrngReg)

/-- The output window's block index at point `t` = (batch, query tile, key tile): the batch `t / 16` on the first axis,
    0 on the second (a block spans all 512 value channels), the query tile `t / 4 mod 4` on the third. -/
private theorem oidx : ∀ t : Fin cfg0.N, win0_3.index t (0 : Fin 3) = t.val / 16 ∧ win0_3.index t (1 : Fin 3) = 0
    ∧ win0_3.index t (2 : Fin 3) = t.val / 4 % 4 :=
  (by decide +kernel : ∀ t : Fin grid0.N, win0_3.index t (0 : Fin 3) = t.val / 16 ∧ win0_3.index t (1 : Fin 3) = 0
    ∧ win0_3.index t (2 : Fin 3) = t.val / 4 % 4)

/-- The specification's array at an index whose three coordinates are known: the online quotient of that batch,
    value channel and query. -/
private theorem G_at (mk qk : (⟨3, ![8, 64, 4096]⟩ : Shape).Idx → EReal) (mv : (⟨3, ![8, 512, 4096]⟩ : Shape).Idx → EReal)
    (j : (⟨3, ![8, 512, 4096]⟩ : Shape).Idx) (b cv qq : ℕ) (h0 : (j 0).val = b) (h1 : (j 1).val = cv) (h2 : (j 2).val = qq) :
    G mk qk mv j = ((outR (re3 mk) (re3 qk) (re3 mv) b cv qq : ℝ) : EReal) := by
  subst h0 h1 h2; rfl

/-- An index of the output array lies in the block of point `t` iff, on each axis, its coordinate lies in the range
    that starts at the block index times the block's extent and is one extent long. -/
private theorem mem_oblk (t : Fin cfg0.N) (i : S8x512x4096.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v3).slice (win0_3.rect t)).set ↔ _
  rw [View.set_slice_whole, Rect.mem_set_unit]
  exact Iff.rfl

/-- What a point of key tile 3 writes back is its block of the specification's array: entry (0, cv, q) of the block
    of point `t` sits in the array at (t / 16, cv, (t / 4 mod 4) * 1024 + q), and the stored block holds the online
    quotient of exactly that batch, value channel and query. -/
private theorem flushed_eq (c : Dev nD) (hK : Fin3 (mkA m c)) (hQ : Fin3 (qkA m c)) (hV : Fin3 (mvA m c))
    (t : Fin cfg0.N) (hf : (cfg0.win 3).flush t = true) :
    (dats m 0 c).flushed 3 t = ((cfg0.win 3).blk t).view.read (Elt Ideal) (G (mkA m c) (qkA m c) (mvA m c)) := by
  have ht : t.val % 4 = 3 := (flush0_3 t).mp hf
  obtain ⟨i0, i1, i2⟩ := oidx t
  show (cfg0.win 3).cut (grid0.coords t) ((dats m 0 c).after 3 t) = _
  rw [after_3]
  funext y
  obtain ⟨z, cv, q, rfl⟩ : ∃ (z : Fin 1) (cv : Fin 512) (q : Fin 1024), y = ix3 z cv q := ⟨y 0, y 1, y 2, eq_ix3 y⟩
  obtain rfl : z = 0 := Subsingleton.elim _ _
  rw [View.read_apply]
  show outAt m c t.val t.isLt (ix3 (0 : Fin 1) cv q)
    = G (mkA m c) (qkA m c) (mvA m c) (((cfg0.win 3).blk t).view.emb (ix3 (0 : Fin 1) cv q))
  refine (outAt_eq m c hK hQ hV t ht cv q).trans (G_at _ _ _ _ _ _ _ ?_ ?_ ?_).symm
  -- a block entry's coordinate in the array is the block index times the block's extent plus its own coordinate
  · show win0_3.index t (0 : Fin 3) * 1 + 1 * 0 = t.val / 16
    omega
  · show win0_3.index t (1 : Fin 3) * 512 + 1 * cv.val = cv.val
    omega
  · show win0_3.index t (2 : Fin 3) * 1024 + 1 * q.val = t.val / 4 % 4 * 1024 + q.val
    omega

/-- Every index of the output array lies in the block of a point of key tile 3: index (b, cv, qq) in that of batch
    `b` and query tile `qq / 1024`, the point `16 b + 4 (qq / 1024) + 3`. -/
private theorem cover (i : S8x512x4096.Idx) :
    ∃ t : Fin cfg0.N, (cfg0.win 3).flush t = true ∧ i ∈ ((cfg0.win 3).blk t).view.set := by
  have hN : cfg0.N = 128 := N_0
  have h0 : (i 0).val < 8 := (i 0).isLt
  have h1 : (i 1).val < 512 := (i 1).isLt
  have h2 : (i 2).val < 4096 := (i 2).isLt
  obtain ⟨t, tv⟩ : ∃ t : Fin cfg0.N, t.val = 16 * (i 0).val + 4 * ((i 2).val / 1024) + 3 :=
    ⟨⟨16 * (i 0).val + 4 * ((i 2).val / 1024) + 3, by rw [hN]; omega⟩, rfl⟩
  obtain ⟨i0, i1, i2⟩ := oidx t
  refine ⟨t, (flush0_3 t).mpr (by omega), ?_⟩
  rw [mem_oblk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 1024 ≤ (i 2).val ∧ (i 2).val < win0_3.index t (2 : Fin 3) * 1024 + 1024
    omega

/-- The output array after the region is the specification's result array. -/
theorem arrAt_eq (c : Dev nD) (hK : Fin3 (mkA m c)) (hQ : Fin3 (qkA m c)) (hV : Fin3 (mvA m c)) :
    ((dats m 0 c).arrAt 3 cfg0.N : (⟨3, ![8, 512, 4096]⟩ : Shape).Idx → EReal) = G (mkA m c) (qkA m c) (mvA m c) :=
  (dats m 0 c).arrAt_eq_of_cover 3 (G (mkA m c) (qkA m c) (mvA m c)) (flushed_eq m c hK hQ hV) cover

/-- On finite arguments the program runs to the end with its result the specification's array (its last axis split in
    two) and its arguments unchanged. -/
theorem kernel_value
    (hfin : ∀ c : Dev nD, FinAll (m ((c : Thread nD τ).loc main_arg0) : S8x64x64x64.Idx → EReal)
      ∧ FinAll (m ((c : Thread nD τ).loc main_arg1) : S8x64x64x64.Idx → EReal)
      ∧ FinAll (m ((c : Thread nD τ).loc main_arg2) : S8x512x64x64.Idx → EReal)) :
    θ_run defs (onTc (τ := τ) (main (F := Ideal))) ⟨m, fun _ => 0, ρ⟩ (fun r => ∀ c : Dev nD,
      r.2.mem ((c.tc : Thread nD τ).loc main_v4)
        = shapeCast S8x512x64x64 (G (shapeCast S8x64x4096 (m ((c.tc : Thread nD τ).loc main_arg0)) shapeCasts_S8x64x64x64_S8x64x4096)
            (shapeCast S8x64x4096 (m ((c.tc : Thread nD τ).loc main_arg1)) shapeCasts_S8x64x64x64_S8x64x4096)
            (shapeCast S8x512x4096 (m ((c.tc : Thread nD τ).loc main_arg2)) shapeCasts_S8x512x64x64_S8x512x4096)) shapeCasts_S8x512x4096_S8x512x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  -- the whole program's run leaves every unscoped buffer that is no window's array at what the one reshape after the
  -- region makes of the region's arrays
  refine (θ_run defs _ _).mono (fun r h c => ?_) (run_main m ρ)
  have hK : Fin3 (mkA m c) := fin3_mkA m c (hfin c).1
  have hQ : Fin3 (qkA m c) := fin3_qkA m c (hfin c).2.1
  have hV : Fin3 (mvA m c) := fin3_mvA m c (hfin c).2.2
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩
  refine ((h c).2 main_v4 (Pipeline.mem_restRefs_of main_v4 (by decide) (by decide))).trans ?_
  -- the region's key, query and value arrays are the arguments with their trailing axes merged
  rw [← mkA_eq m c, ← qkA_eq m c, ← mvA_eq m c]
  -- the result is the reshape of the output array as the region left it, and that array is `G`
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = G (mkA m c) (qkA m c) (mvA m c) :=
    (Pipeline.withArrays_arr spec0 launch0.win.arr_inj c _ _ 3).trans (arrAt_eq m c hK hQ hV)
  rw [e]
  rfl

end Cert.KernelIdeal.AttnValue

end
-- ==== Proof.RefValue.lean ====
/-
  The reference program's result.

  The reference merges the two trailing axes of its arguments, scales the queries, forms all 4096 × 4096 scores per
  batch, takes the softmax over the key axis (subtract the column maximum, exponentiate, divide by the column sum) and
  multiplies the values by the weights.  On finite arguments every intermediate entry is a real number, the result at
  `(b, cv, q)` is the softmax-weighted sum of the values, and that is the specification's `G` (`outR_eq`).
-/
import proofs.«418840_j16930761081022_3_alg».proof.Proof.Gen.ReferenceIdeal.Read
import proofs.«418840_j16930761081022_3_alg».proof.Proof.AttnSpec
import Idealize.ShloMosaic.Lib.ValueIdx
import Idealize.ShloMosaic.Lib.Pipeline.Value
import Idealize.ShloMosaic.PureOps.Ideal.Laws

set_option maxRecDepth 16384

noncomputable section

namespace Cert.ReferenceIdeal.AttnRef

open Cert.ReferenceIdeal Cert.ReferenceIdeal.Gen Cert.ReferenceIdeal.Read
open Idealize.ShloMosaic Idealize.ShloMosaic.TcCoe Idealize.ShloMosaic.ValueIdx Idealize.SL.Sem
open Cert.AttnMath Cert.AttnSpec

/-! ## Real numbers inside the extended reals -/

/-- A finite sum of real numbers, read in the extended reals, is the sum of their readings. -/
private theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The larger of two real numbers, read in the extended reals, is the larger of their readings. -/
private theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The running maximum from `-∞` over a nonempty finite family of real numbers is the largest of them. -/
private theorem fold_max_coe {ι : Type} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a => rw [Finset.fold_singleton, Finset.sup'_singleton, max_eq_left bot_le]
  | cons a s ha hs ih => rw [Finset.fold_cons, ih, Finset.sup'_cons hs, coe_max]

/-- The same with the family and the starting value given up to equality. -/
private theorem fold_max_eq {n : ℕ} (g : Fin n → EReal) (f : Fin n → ℝ) (init : EReal) (hi : init = ⊥)
    (hg : ∀ k, g k = ((f k : ℝ) : EReal)) (hne : (Finset.univ : Finset (Fin n)).Nonempty) :
    (Finset.univ : Finset (Fin n)).fold max init g = ((Finset.univ.sup' hne f : ℝ) : EReal) := by
  subst hi
  rw [show g = fun k => ((f k : ℝ) : EReal) from funext hg]
  exact fold_max_coe _ hne f

/-- The literal `0xFF800000` is `-∞`. -/
private theorem neg_inf_eq : Ideal.ofBits .f32 0xFF800000#32 = (⊥ : EReal) := by
  simp [Ideal.ofBits, Ideal.ieee]

/-! ## The reference's stages at an index

`mk`, `qk`, `mv` are the keys, queries and values with their two trailing axes merged; all their entries are real
numbers.  For a batch `b` and a query `q` write `S m` for the score of key `m`.  Each stage of the reference, read at an
index, is then the reading of a real number. -/

section Stages

variable (x0 x1 : (⟨S8x64x64x64, .f32⟩ : BufTy).Contents (Elt Ideal))
  (x2 : (⟨S8x512x64x64, .f32⟩ : BufTy).Contents (Elt Ideal))
  (mk qk : S8x64x4096.Idx → EReal) (mv : S8x512x4096.Idx → EReal)
  (hmk : val_main_v0 (F := Ideal) x0 = mk) (hqk : val_main_v1 (F := Ideal) x1 = qk)
  (hmv : val_main_v16 (F := Ideal) x2 = mv)
  (fk : Fin3 mk) (fq : Fin3 qk) (fv : Fin3 mv)

include hmk hqk fk fq in
/-- The score array at `(b, m, q)` is the real score `∑ c, K b c m * (Q b c q * sc)`. -/
theorem scores_at (b : Fin 8) (m q : Fin 4096) :
    val_main_v4 (F := Ideal) x0 x1 (ix3 b m q)
      = ((score (re3 mk) (re3 qk) b.val m.val q.val : ℝ) : EReal) := by
  rw [val_main_v4_apply, hmk]
  unfold score
  rw [← coe_sum]
  refine Finset.sum_congr rfl fun c _ => ?_
  have el : lidx_main_v4 (ix3 b m q) c = ix3 b c m :=
    funext fun a => by match a with | ⟨0, _⟩ => rfl | ⟨1, _⟩ => rfl | ⟨2, _⟩ => rfl
  have er : ridx_main_v4 (ix3 b m q) c = ix3 b c q :=
    funext fun a => by match a with | ⟨0, _⟩ => rfl | ⟨1, _⟩ => rfl | ⟨2, _⟩ => rfl
  rw [el, er, val_main_v3_apply, hqk, val_main_v2_apply, val_main_cst_apply, re3_coe fk b c m, re3_coe fq b c q,
    Ideal.mulf_def, Ideal.ofBits_def, sc_eq, ← EReal.coe_mul, ← EReal.coe_mul]

/-- The score array's key axis is the one the two reductions drop. -/
private theorem dropsKeys : S8x4096x4096.Reduces [1] S8x4096 := by decide

include hmk hqk fk fq in
/-- The maximum over the key axis, from `-∞`, at `(b, q)` is the largest of the 4096 real scores. -/
theorem colmax_at (b : Fin 8) (q : Fin 4096) :
    val_main_v5 (F := Ideal) x0 x1 (ix2 b q)
      = ((gmax (fun m => score (re3 mk) (re3 qk) b.val m q.val) : ℝ) : EReal) := by
  unfold val_main_v5
  rw [Host.reduce_eq_fold_single FloatOps.maximumf _ _ reducesTo_S8x4096x4096_S8x4096_d1 dropsKeys h_S_ (ix2 b q)]
  unfold gmax
  refine fold_max_eq (n := 4096) _ (fun m => score (re3 mk) (re3 qk) b.val m.val q.val) _ ?_ (fun k => ?_) _
  · rw [val_main_cst_0_apply, Ideal.ofBits_def, neg_inf_eq]
  · show val_main_v4 (F := Ideal) x0 x1 (dropsKeys.lift (ix2 b q) k) = _
    rw [show dropsKeys.lift (ix2 b q) k = ix3 b k q from
      funext fun a => Fin.ext (by match a with | ⟨0, _⟩ => rfl | ⟨1, _⟩ => rfl | ⟨2, _⟩ => rfl)]
    exact scores_at x0 x1 mk qk hmk hqk fk fq b k q

include hmk hqk fk fq in
/-- The column maximum, joined with `-∞` and spread back over the key axis, is still the largest score. -/
theorem spreadmax_at (b : Fin 8) (m q : Fin 4096) :
    val_main_v9 (F := Ideal) x0 x1 (ix3 b m q)
      = ((gmax (fun m' => score (re3 mk) (re3 qk) b.val m' q.val) : ℝ) : EReal) := by
  rw [val_main_v9_apply, val_main_v8_apply, val_main_v7_apply, val_main_v6_apply, val_main_cst_1_apply,
    show idx_main_v8 (idx_main_v9 (ix3 b m q)) = ix2 b q from
      funext fun a => by match a with | ⟨0, _⟩ => rfl | ⟨1, _⟩ => rfl,
    colmax_at x0 x1 mk qk hmk hqk fk fq b q, Ideal.maximumf_def, Ideal.ofBits_def, neg_inf_eq, max_eq_right bot_le]

include hmk hqk fk fq in
/-- The exponential of the shifted score: `exp (S m - max S)`, a real number. -/
theorem expo_at (b : Fin 8) (m q : Fin 4096) :
    val_main_v11 (F := Ideal) x0 x1 (ix3 b m q)
      = ((Real.exp (score (re3 mk) (re3 qk) b.val m.val q.val
          - gmax (fun m' => score (re3 mk) (re3 qk) b.val m' q.val)) : ℝ) : EReal) := by
  rw [val_main_v11_apply, val_main_v10_apply, scores_at x0 x1 mk qk hmk hqk fk fq b m q,
    spreadmax_at x0 x1 mk qk hmk hqk fk fq b m q, Ideal.hostUnary_exp_def, Ideal.subf_def, ← EReal.coe_sub,
    Ideal.exp_coe]

include hmk hqk fk fq in
/-- The column sum, from `0`, at `(b, q)`: the sum of the 4096 exponentials. -/
theorem colsum_at (b : Fin 8) (q : Fin 4096) :
    val_main_v12 (F := Ideal) x0 x1 (ix2 b q)
      = ((∑ m' : Fin 4096, Real.exp (score (re3 mk) (re3 qk) b.val m'.val q.val
          - gmax (fun m'' => score (re3 mk) (re3 qk) b.val m'' q.val)) : ℝ) : EReal) := by
  rw [val_main_v12_apply, val_main_cst_2_apply, Ideal.ofBits_def, Ideal.ofBits_zero_f32, zero_add, ← coe_sum]
  refine Finset.sum_congr rfl fun k _ => ?_
  rw [show idx_main_v12 (ix2 b q) k = ix3 b k q from
    funext fun a => by match a with | ⟨0, _⟩ => rfl | ⟨1, _⟩ => rfl | ⟨2, _⟩ => rfl]
  exact expo_at x0 x1 mk qk hmk hqk fk fq b k q

include hmk hqk fk fq in
/-- The weight of key `m`: the exponential divided by the column sum.  The sum is a positive real number, so the
    quotient is the product with its reciprocal. -/
theorem weight_at (b : Fin 8) (m q : Fin 4096) :
    val_main_v15 (F := Ideal) x0 x1 (ix3 b m q)
      = ((Real.exp (score (re3 mk) (re3 qk) b.val m.val q.val
            - gmax (fun m' => score (re3 mk) (re3 qk) b.val m' q.val))
          * (1 / ∑ m' : Fin 4096, Real.exp (score (re3 mk) (re3 qk) b.val m'.val q.val
            - gmax (fun m'' => score (re3 mk) (re3 qk) b.val m'' q.val))) : ℝ) : EReal) := by
  have hpos : (0 : ℝ) < ∑ m' : Fin 4096, Real.exp (score (re3 mk) (re3 qk) b.val m'.val q.val
      - gmax (fun m'' => score (re3 mk) (re3 qk) b.val m'' q.val)) :=
    Finset.sum_pos (fun _ _ => Real.exp_pos _) ⟨0, Finset.mem_univ _⟩
  rw [val_main_v15_apply, val_main_v14_apply, val_main_v13_apply,
    show idx_main_v13 (idx_main_v14 (ix3 b m q)) = ix2 b q from
      funext fun a => by match a with | ⟨0, _⟩ => rfl | ⟨1, _⟩ => rfl,
    colsum_at x0 x1 mk qk hmk hqk fk fq b q, expo_at x0 x1 mk qk hmk hqk fk fq b m q, Ideal.hostDivf_def,
    Ideal.div_coe hpos.ne', ← EReal.coe_mul]

include hmk hqk hmv fk fq fv in
/-- The result at `(b, cv, q)`: the values of channel `cv` weighted by the softmax of the scores. -/
theorem result_at (b : Fin 8) (cv : Fin 512) (q : Fin 4096) :
    val_main_v17 (F := Ideal) x0 x1 x2 (ix3 b cv q)
      = ((softmaxOut (fun m => score (re3 mk) (re3 qk) b.val m q.val) (fun m => re3 mv b.val cv.val m) : ℝ) : EReal) := by
  rw [val_main_v17_apply, hmv]
  unfold softmaxOut
  rw [← coe_sum]
  refine Finset.sum_congr rfl fun k _ => ?_
  rw [show lidx_main_v17 (ix3 b cv q) k = ix3 b cv k from
      funext fun a => by match a with | ⟨0, _⟩ => rfl | ⟨1, _⟩ => rfl | ⟨2, _⟩ => rfl,
    show ridx_main_v17 (ix3 b cv q) k = ix3 b k q from
      funext fun a => by match a with | ⟨0, _⟩ => rfl | ⟨1, _⟩ => rfl | ⟨2, _⟩ => rfl,
    weight_at x0 x1 mk qk hmk hqk fk fq b k q, re3_coe fv b cv k, ← EReal.coe_mul]

include hmk hqk hmv fk fq fv in
/-- So the reference's last rank-3 stage is the specification's array. -/
theorem result_eq : val_main_v17 (F := Ideal) x0 x1 x2 = G mk qk mv := by
  funext j
  obtain ⟨b, cv, q, rfl⟩ : ∃ (b : Fin 8) (cv : Fin 512) (q : Fin 4096), j = ix3 b cv q := ⟨j 0, j 1, j 2, eq_ix3 j⟩
  rw [result_at x0 x1 x2 mk qk mv hmk hqk hmv fk fq fv b cv q]
  show _ = ((outR (re3 mk) (re3 qk) (re3 mv) b.val cv.val q.val : ℝ) : EReal)
  rw [outR_eq]

end Stages

/-! ## The run -/

/-- Merging axes moves entries, so a merged array of real numbers holds real numbers. -/
private theorem fin_keys {x : (⟨S8x64x64x64, .f32⟩ : BufTy).Contents (Elt Ideal)}
    (h : FinAll (x : S8x64x64x64.Idx → EReal)) : Fin3 (val_main_v0 (F := Ideal) x : S8x64x4096.Idx → EReal) :=
  fun i => by rw [val_main_v0_apply]; exact h _

private theorem fin_queries {x : (⟨S8x64x64x64, .f32⟩ : BufTy).Contents (Elt Ideal)}
    (h : FinAll (x : S8x64x64x64.Idx → EReal)) : Fin3 (val_main_v1 (F := Ideal) x : S8x64x4096.Idx → EReal) :=
  fun i => by rw [val_main_v1_apply]; exact h _

private theorem fin_values {x : (⟨S8x512x64x64, .f32⟩ : BufTy).Contents (Elt Ideal)}
    (h : FinAll (x : S8x512x64x64.Idx → EReal)) : Fin3 (val_main_v16 (F := Ideal) x : S8x512x4096.Idx → EReal) :=
  fun i => by rw [val_main_v16_apply]; exact h _

/-- On finite arguments the reference runs to the end with its result the specification's array (its last axis split in
    two) and its arguments unchanged. -/
theorem ref_value (m' : (ℓ : Loc nD τ sig) → Buf (Elt Ideal) ℓ) (ρ' : Dev nD → PrngReg)
    (hfin : ∀ c : Dev nD, FinAll (m' ((c : Thread nD τ).loc main_arg0) : S8x64x64x64.Idx → EReal)
      ∧ FinAll (m' ((c : Thread nD τ).loc main_arg1) : S8x64x64x64.Idx → EReal)
      ∧ FinAll (m' ((c : Thread nD τ).loc main_arg2) : S8x512x64x64.Idx → EReal)) :
    θ_run defs (onTc (τ := τ) (main (F := Ideal))) ⟨m', fun _ => 0, ρ'⟩ (fun r => ∀ c : Dev nD,
      r.2.mem ((c.tc : Thread nD τ).loc main_v18)
        = shapeCast S8x512x64x64 (G (shapeCast S8x64x4096 (m' ((c.tc : Thread nD τ).loc main_arg0)) shapeCasts_S8x64x64x64_S8x64x4096)
            (shapeCast S8x64x4096 (m' ((c.tc : Thread nD τ).loc main_arg1)) shapeCasts_S8x64x64x64_S8x64x4096)
            (shapeCast S8x512x4096 (m' ((c.tc : Thread nD τ).loc main_arg2)) shapeCasts_S8x512x64x64_S8x512x4096)) shapeCasts_S8x512x4096_S8x512x64x64
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run defs _ _).mono (fun _ h c => ⟨(h c).1.trans ?_, (h c).2⟩)
    (Cert.ReferenceIdeal.Value.run (F := Ideal) m' ρ')
  obtain ⟨h0, h1, h2⟩ := hfin c
  refine (val_main_v18_eq _ _ _).trans ?_
  exact congrArg (fun x => shapeCast S8x512x64x64 x shapeCasts_S8x512x4096_S8x512x64x64)
    (result_eq _ _ _ _ _ _ rfl rfl rfl (fin_keys h0) (fin_queries h1) (fin_values h2))

end Cert.ReferenceIdeal.AttnRef

end
-- ==== Proof.Finite.lean ====
/-
  What the precondition says: every entry of the three argument arrays is a real number.

  The printed predicate is the conjunction, over the three arrays, of "all entries have absolute value below +∞";
  an extended real whose absolute value is below +∞ is neither +∞ nor −∞.
-/
import proofs.«418840_j16930761081022_3_alg».proof.Pre_finite_inputs
import Idealize.ShloMosaic.PureOps.Ideal.Laws
import Idealize.ShloMosaic.Lib.ReduceAll
import Idealize.ShloMosaic.Lib.ValueIdx

noncomputable section

namespace Cert.AttnFinite

open Idealize.ShloMosaic Idealize.ShloMosaic.ValueIdx

/-- The pattern with all exponent bits set and a zero fraction denotes +∞. -/
private theorem ofBits_inf : Ideal.ofBits .f32 0x7F800000#32 = (⊤ : EReal) := by
  simp [Ideal.ofBits, Ideal.ieee]

/-- One entry: if max x (−x) lies strictly below +∞ then x is a real number. For x = −∞ the maximum is −(−∞) = +∞, and for
    x = +∞ it is +∞ itself; neither is strictly below +∞. -/
private theorem real_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => exact absurd h (by simp [Ideal.cmp])
  | coe r => exact ⟨EReal.coe_ne_top r, EReal.coe_ne_bot r⟩
  | top => exact absurd h (by simp [Ideal.cmp])

/-- The rank-0 shape has exactly one index. -/
private instance : Subsingleton Cert.Pre_finite_inputs.S_.Idx := ⟨fun a b => funext fun d => d.elim0⟩

/-- One array: if the conjunction over all entries of "|entry| < +∞" is 1, then every entry is a real number. A conjunction
    that is 1 had a 1 at every entry, and the entry's bit is the comparison of max x (−x) with the +∞ literal. -/
private theorem real_of_all {T : Shape} {axes : List (Fin T.rank)} (a : FVec Ideal T .f32)
    (bc : Cert.Pre_finite_inputs.S_.BroadcastsInDim T (![] : Fin 0 → Fin T.rank))
    (red : T.ReducesTo axes Cert.Pre_finite_inputs.S_) (hS : 0 < Cert.Pre_finite_inputs.S_.numel)
    (h : Host.reduce IntOp.andi
          (cmpf .olt (Host.absf a)
            (broadcastInDim T ![] bc (constant (F := Ideal) Cert.Pre_finite_inputs.S_ .f32 0x7F800000#32)))
          (constantI Cert.Pre_finite_inputs.S_ 1 1#1) red hS ix0 = 1#1) :
    ∀ i, a i ≠ ⊤ ∧ a i ≠ ⊥ := fun i =>
  real_of_abs_lt (a i) (Host.reduce_andi_all _ _ red hS ix0 h i)

/-- If the printed predicate is all ones on three arrays, every entry of each is finite. -/
theorem fin_of_pre [Cert.Pre_finite_inputs.Facts]
    (a0 a1 : FVec Ideal Cert.Pre_finite_inputs.S8x64x64x64 .f32) (a2 : FVec Ideal Cert.Pre_finite_inputs.S8x512x64x64 .f32)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [Cert.Pre_finite_inputs.fn] at h0
  -- the result is (p0 ∧ p1) ∧ p2, one bit per array
  obtain ⟨h01, h2⟩ := IntOp.andi_eq_one.1 h0
  obtain ⟨h0', h1⟩ := IntOp.andi_eq_one.1 h01
  exact ⟨real_of_all a0 _ _ _ h0', real_of_all a1 _ _ _ h1, real_of_all a2 _ _ _ h2⟩

end Cert.AttnFinite

end
-- ==== Proof.lean ====
/-
  Attention with the softmax taken over the memory axis — out[b, cv, q] = ∑ₘ V[b, cv, m] · softmaxₘ(∑_c K[b, c, m] · Q[b, c, q] / 8) —
  computed by a kernel that walks the 4096 keys in four tiles with the online (running maximum, running
  normaliser, running numerator) recursion, against the plain formula of the reference.

  Over the extended reals with finite inputs every score is a real number, so the rescaling identity
  exp (a − b) · exp (c − a) = exp (c − b) makes the online statistics after the fourth tile the global maximum, the
  full normaliser and the full numerator, and numerator / normaliser is the softmax-weighted sum: both programs
  end with one and the same array `G` of the inputs (Proof/AttnMath.lean, Proof/AttnSpec.lean).

  The kernel's run is read in three layers: the body's behaviour in each of its three control cases (key tile 0: reset;
  key tiles 1–3: update; key tile 3 also: normalise and store) on arbitrary buffers (Proof/KI/RunA–C.lean), the
  contents of the three scratch buffers after every grid point by recursion on the point and the launch of the whole
  grid (Proof/KI/Data.lean, Proof/KI/Body.lean), and the closed form of those contents with the array the written
  blocks assemble to (Proof/PayIdx.lean, Proof/BlockRead.lean, Proof/Invariant.lean, Proof/Final.lean).  The
  reference's run is read operation by operation (Proof/RefValue.lean).  The word-level program is the same text read
  at machine words: its frame is the same argument (Proof/K/).  The idealization rewrote nothing, so there is
  nothing to preserve.
-/
import proofs.«418840_j16930761081022_3_alg».proof.Defs
import proofs.«418840_j16930761081022_3_alg».proof.Proof.Gen.Kernel
import proofs.«418840_j16930761081022_3_alg».proof.Proof.Gen.KernelIdeal
import proofs.«418840_j16930761081022_3_alg».proof.Proof.Gen.ReferenceIdeal
import proofs.«418840_j16930761081022_3_alg».proof.Proof.Gen.Pre_finite_inputs
import proofs.«418840_j16930761081022_3_alg».proof.Proof.Gen.ReferenceIdeal.Run
import proofs.«418840_j16930761081022_3_alg».proof.Proof.K.Body
import proofs.«418840_j16930761081022_3_alg».proof.Proof.Final
import proofs.«418840_j16930761081022_3_alg».proof.Proof.RefValue
import proofs.«418840_j16930761081022_3_alg».proof.Proof.Finite

noncomputable section

namespace Cert.Proof

open Idealize.ShloMosaic Idealize.ShloMosaic.TcCoe Idealize.SL.Sem Cert.AttnSpec

/-- The word-level program runs to the end and keeps its arguments. -/
theorem frame_p : Cert.frame_Kernel := fun m ρ _ => Cert.Kernel.Attn.frame m ρ

/-- So does the idealized program. -/
theorem frame_pi : Cert.frame_KernelIdeal := fun m ρ _ => Cert.KernelIdeal.Attn.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the specification's array. -/
theorem algebraic : Cert.algebraic_KernelIdeal_ReferenceIdeal := by
  intro m ρ m' ρ' hpre hagree
  have hfin := fun c => Cert.AttnFinite.fin_of_pre _ _ _ (hpre c)
  refine ⟨_, Cert.KernelIdeal.AttnValue.kernel_value m ρ hfin, ?_⟩
  refine (θ_run Cert.ReferenceIdeal.defs _ _).mono (fun _ h c => ⟨(h c).1.trans ?_, (h c).2⟩)
    (Cert.ReferenceIdeal.AttnRef.ref_value m' ρ' (fun c => by
      rw [(hagree c).1, (hagree c).2.1, (hagree c).2.2]; exact hfin c))
  rw [(hagree c).1, (hagree c).2.1, (hagree c).2.2]

end Cert.Proof

/-- Everything the certificate claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
